-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S4096x8192 : Shape := ⟨2, ![4096, 8192]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8192x128 .f32) (main_arg1 : FVec F S8192x8192 .f32) (main_arg2 : FVec F S4096x8192 .f32) (main_arg3 : FVec F S128x128 .f32) (main_arg4 : FVec F S128 .f32) (main_arg5 : FVec F S128x128 .f32) (main_arg6 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S4096x8192 .f32 := Host.absf main_arg2
  let main_cst_2 : FVec F S_ .f32 := constant S_ .f32 0x7F800000#32
  let main_v10 : FVec F S4096x8192 .f32 := broadcastInDim S4096x8192 ![] bcast_S_S4096x8192 main_cst_2
  let main_v11 : IVec S4096x8192 1 := cmpf .olt main_v9 main_v10
  let main_c_3 : IVec S_ 1 := constantI S_ 1 1#1
  let main_v12 : IVec S_ 1 := (fun x v => Host.reduce IntOp.andi x v reducesTo_S4096x8192_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S8192x128 : Shape := ⟨2, ![8192, 128]⟩
abbrev S8192x8192 : Shape := ⟨2, ![8192, 8192]⟩
abbrev S4096x8192 : Shape := ⟨2, ![4096, 8192]⟩
abbrev S128x128 : Shape := ⟨2, ![128, 128]⟩
abbrev S128 : Shape := ⟨1, ![128]⟩
abbrev S8192x1 : Shape := ⟨2, ![8192, 1]⟩
abbrev S512x8192 : Shape := ⟨2, ![512, 8192]⟩
abbrev S512x1 : Shape := ⟨2, ![512, 1]⟩
abbrev S512 : Shape := ⟨1, ![512]⟩
abbrev S2048x2048 : Shape := ⟨2, ![2048, 2048]⟩
abbrev S2048x128 : Shape := ⟨2, ![2048, 128]⟩
abbrev S2048x1 : Shape := ⟨2, ![2048, 1]⟩
abbrev S1x128 : Shape := ⟨2, ![1, 128]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 13
  | .vmem => 23
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S4096x8192, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S8192x1, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S4096x128, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S2048x2048, .f32⟩
  | .local _ .vmem, ⟨5, _⟩ => ⟨S2048x2048, .f32⟩
  | .local _ .vmem, ⟨6, _⟩ => ⟨S2048x128, .f32⟩
  | .local _ .vmem, ⟨7, _⟩ => ⟨S2048x128, .f32⟩
  | .local _ .vmem, ⟨8, _⟩ => ⟨S2048x1, .f32⟩
  | .local _ .vmem, ⟨9, _⟩ => ⟨S2048x1, .f32⟩
  | .local _ .vmem, ⟨10, _⟩ => ⟨S128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S1024x2048, .f32⟩
  | .local _ .vmem, ⟨15, _⟩ => ⟨S1024x2048, .f32⟩
  | .local _ .vmem, ⟨16, _⟩ => ⟨S2048x128, .f32⟩
  | .local _ .vmem, ⟨17, _⟩ => ⟨S2048x128, .f32⟩
  | .local _ .vmem, ⟨18, _⟩ => ⟨S128x128, .f32⟩
  | .local _ .vmem, ⟨19, _⟩ => ⟨S128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  bcast_S8192x1_S8192x128_0_1 : S8192x1.BroadcastsInDim S8192x128 (![0, 1] : Fin 2 → Fin S8192x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  inb_S128x128_S128x128_0_0 : ∀ a, (![0, 0] : Fin 2 → Nat) a + S128x128.size a ≤ S128x128.size a
  h_S128x128 : 0 < S128x128.numel
  broadcasts_S1x128_S1024x128 : S1x128.Broadcasts S1024x128
  dot_S8192x128_S128x128_S8192x128_1_0_0_1_n_n_wf : DotDims.WF S8192x128 S128x128 S8192x128 [1] [0] [0] [1] [] []
  dot_S2048x2048_S2048x128_S2048x128_1_0_0_1_n_n_wf : DotDims.WF S2048x2048 S2048x128 S2048x128 [1] [0] [0] [1] [] []
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .f32 = 32 ∨ (Rect.block (s := S8192x8192) S2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x128.size a ≤ S8192x128.size a
  hwx1_4 : ∀ i : grid1.Coords, EltTy.bits .f32 = 32 ∨ (Rect.block (s := S8192x128) S2048x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S4096x8192.size a
  hwx2_0 : ∀ i : grid2.Coords, EltTy.bits .f32 = 32 ∨ (Rect.block (s := S4096x8192) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S8192x128.size a
  hwx2_1 : ∀ i : grid2.Coords, EltTy.bits .f32 = 32 ∨ (Rect.block (s := S8192x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x128.size a ≤ S4096x128.size a
  hwx2_4 : ∀ i : grid2.Coords, EltTy.bits .f32 = 32 ∨ (Rect.block (s := S4096x128) S1024x128.size (cc2_transform_4 i) (hinb2_4 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S2048x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg2) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1024x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S4096x8192 : Shape := ⟨2, ![4096, 8192]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩
abbrev S4096x128 : Shape := ⟨2, ![4096, 128]⟩

abbrev nBuf : Space → Nat
  | .hbm => 42
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S4096x8192, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .i1⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S1x8192, .f32⟩
  | .hbm, ⟨24, _⟩ => ⟨S8192x8192, .f32⟩
  | .hbm, ⟨25, _⟩ => ⟨S8192x8192, .f32⟩
  | .hbm, ⟨26, _⟩ => ⟨S8192x128, .f32⟩
  | .hbm, ⟨27, _⟩ => ⟨S8192x128, .f32⟩
  | .hbm, ⟨28, _⟩ => ⟨S1x128, .f32⟩
  | .hbm, ⟨29, _⟩ => ⟨S8192x128, .f32⟩
  | .hbm, ⟨30, _⟩ => ⟨S8192x128, .f32⟩
  | .hbm, ⟨31, _⟩ => ⟨S_, .f32⟩
  | .hbm, ⟨32, _⟩ => ⟨S8192x128, .f32⟩
  | .hbm, ⟨33, _⟩ => ⟨S8192x128, .f32⟩
  | .hbm, ⟨34, _⟩ => ⟨S4096x128, .f32⟩
  | .hbm, ⟨35, _⟩ => ⟨S4096x128, .f32⟩
  | .hbm, ⟨36, _⟩ => ⟨S1x128, .f32⟩
  | .hbm, ⟨37, _⟩ => ⟨S4096x128, .f32⟩
  | .hbm, ⟨38, _⟩ => ⟨S4096x128, .f32⟩
  | .hbm, ⟨39, _⟩ => ⟨S_, .f32⟩
  | .hbm, ⟨40, _⟩ => ⟨S4096x128, .f32⟩
  | .hbm, ⟨41, _⟩ => ⟨S4096x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call1_cst : Ref sig .tc := ⟨.hbm, 31, rfl⟩
abbrev main_call1_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call2_cst : Ref sig .tc := ⟨.hbm, 39, rfl⟩
abbrev main_call2_v0 : Ref sig .tc := ⟨.hbm, 40, rfl⟩
abbrev main_v24 : Ref sig .tc := ⟨.hbm, 41, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []
  dot_S4096x8192_S8192x128_S4096x128_1_0_0_1_n_n_wf : DotDims.WF S4096x8192 S8192x128 S4096x128 [1] [0] [0] [1] [] []
  dot_S4096x128_S128x128_S4096x128_1_0_0_1_n_n_wf : DotDims.WF S4096x128 S128x128 S4096x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S4096x8192_S8192x128_S4096x128_1_0_0_1_n_n : DotDims S4096x8192 S8192x128 S4096x128 where
  lhsContracting := [1]
  rhsContracting := [0]
  lhsNonContracting := [0]
  rhsNonContracting := [1]
  lhsBatch := []
  rhsBatch := []
  wf := dot_S4096x8192_S8192x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

class Facts : Prop extends Facts₀ where

variable [Facts]
-- ==== Proof.K.Deg.lean ====
/-
  Region 0 of the program: the row-degree kernel.  One grid axis of 16 points; at point t the body
  reads the 512 x 8192 block of rows [512 t, 512 t + 512) of the adjacency matrix and stores, for each
  of those rows, d = (s > 0 ? rsqrt (max s 1e-12) : 0) with s the row's sum, into the 512 x 1 block of
  the result column.  Here: what the block holds after the body as a function of the input block, the
  body's triple, and the pipeline's proof data with its body obligation, at any element instance and
  for any contents V of the buffers at the region's entry.
-/
import proofs.«115208_j43868795961667_1_alg».proof.Proof.Gen.Kernel.Launch
import proofs.«115208_j43868795961667_1_alg».proof.Proof.Gen.Kernel.Skeleton
import proofs.«115208_j43868795961667_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the block of the point, for any proof data that leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512 x 8192 input block and the whole 512 x 1 output block, as rectangles. -/
abbrev rIn0 : Rect S512x8192 := Rect.unit (s := S512x8192) ![0, 0] S512x8192.size inb_S512x8192_S512x8192_0_0
abbrev rOut0 : Rect S512x1 := Rect.unit (s := S512x1) ![0, 0] S512x1.size inb_S512x1_S512x1_0_0

/-- What the body leaves in the output block: the one whole-block store of the degree payload of the input block. -/
def out0_1 (x0 : Vec F S512x8192 .f32) : Vec F S512x1 .f32 :=
  View.canon [⟨rOut0, k0_pay1 (View.ld x0 rIn0)⟩]

theorem cover0_1 (p0 : Vec F S512x1 .f32) (y : S512x1.Idx) :
    ∃ pc ∈ ([⟨rOut0, p0⟩] : List (View.Piece (Elt F) S512x1 .f32)), y ∈ pc.1.set :=
  View.cover_of_tiled [⟨rOut0, p0⟩] S512x1.size (by rfl) y

set_option maxHeartbeats 1000000 in
/-- The body on whole staging buffers: the input kept, the output at the degree column of the input block. -/
theorem sound_kernel0 (c : Dev nD) (E : Set ℕ) (i : grid0.Coords) (arg1 : Memref sig .tc .vmem S512x8192 .f32) (harg1 : arg1.IsWhole) (arg2 : Memref sig .tc .vmem S512x1 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.GcnData.lean ====
/-
  Region 1 of the program: the graph-convolution matmul.  A 4 x 4 grid, rows outer, reduction inner.  At point (i, k) the body adds to a 2048 x 128 scratch accumulator (zeroed at k = 0) the product of block (i, k) of the adjacency matrix with block k of the scaled features, and at k = 3 stores max (acc * d + b, 0) into block i of the result.  Here: the branch conditions in closed form, the accumulator after each point, the region's invariant and proof data.
-/
import proofs.«115208_j43868795961667_1_alg».proof.Proof.Gen.Kernel.Launch
import proofs.«115208_j43868795961667_1_alg».proof.Proof.Gen.Kernel.Skeleton
import proofs.«115208_j43868795961667_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the block of the point, fetched there or not, for any proof data that leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the block of the point, fetched there or not, for any proof data that leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds the block of the point, fetched there or not, for any proof data that leaves it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds the block of the point, fetched there or not, for any proof data that leaves it in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, decided over the grid: the reduction axis is the inner one, of extent 4 -/

/-- "first step of the reduction": the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "last step of the reduction": the epilogue runs and the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last reduction step the output window is idle and is not written back; at it, it is live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- The staging memrefs the pipeline passes at point t, and the accumulator scratch. -/
abbrev ms1_0 (t : Fin cfg1.N) : Memref sig .tc .vmem S2048x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x128 .f32 := win1_4.stage (cfg1.slots t 4)
abbrev hs1_4 (t : Fin cfg1.N) : (ms1_4 t).IsWhole := hstage1_4 ((cfg1.slots t 4).cast nbuf1_4)
abbrev scM1 : Memref sig .tc .vmem S2048x128 .f32 := Memref.whole cc1_scratch0

/-! ## The accumulator after each point -/

/-- What the scratch accumulator holds after the body at position n: at the first step of a reduction the partial
    product of the point's two blocks over the zero fill; at a later step the same over what the step before left. -/
def acc1 (c : Dev nD) : (n : ℕ) → n < cfg1.N → Vec F S2048x128 .f32
  | 0, hn => k1_pay2 (iblk1 V c 0 ⟨0, hn⟩) (iblk1 V c 1 ⟨0, hn⟩) k1_pay1
  | n + 1, hn =>
    if (n + 1) % 4 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

theorem acc1_reset (c : Dev nD) (t : Fin cfg1.N) (h : t.val % 4 = 0) :
    acc1 V c t.val t.isLt = k1_pay2 (iblk1 V c 0 t) (iblk1 V c 1 t) k1_pay1 := by
  obtain ⟨n, hn⟩ := t
  cases n with
  | zero => rfl
  | succ n => exact (if_pos h)

theorem acc1_step (c : Dev nD) (t : Fin cfg1.N) (h : ¬t.val % 4 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact (if_neg h)

/-! ## The region invariant: the accumulator at what the point before left, everything else the body never touches -/

/-- The scoped buffers other than the accumulator and the generator register, as what gives the class invariant back
    once the accumulator is returned at any contents. -/
def Rest1 (c : Dev nD) : sProp 𝕄 :=
  iprop((∃ d : Vec F S2048x128 .f32, owns (c : Thread nD τ) scM1 fullShare d) -∗ Pipeline.ΦA spec1 c)

def Phi1 (c : Dev nD) : (n : ℕ) → n ≤ cfg1.N → sProp 𝕄
  | 0, _ => Pipeline.ΦA spec1 c
  | n + 1, hn => iprop(owns (c : Thread nD τ) scM1 fullShare (acc1 V c n hn) ∗ Rest1 c)

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(owns (c : Thread nD τ) scM1 fullShare (acc1 V c n hn) ∗ Rest1 c) := rfl
theorem Phi1_pos (c : Dev nD) (n : ℕ) (h : n ≤ cfg1.N) (hz : n ≠ 0) :
    Phi1 V c n h = iprop(owns (c : Thread nD τ) scM1 fullShare (acc1 V c (n - 1) (by omega)) ∗ Rest1 c) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val t.isLt) (iblk1 V c 2 t) (iblk1 V c 3 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (acc1 V c t.val t.isLt) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## What the launch hands the region, and what it takes back -/

theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht]
  unfold Rest1
  iintro ⟨HS, Hr⟩
  iapply Hr
  iexists _; iexact HS

theorem hout1 (c : Dev nD) : (dat1 V c).Φ (Fin.last cfg1.N) ⊢ Pipeline.ΦA spec1 c :=
  Phi1_out V c _ (by rw [Fin.val_last]; have : cfg1.N = 16 := N_1; omega)

end Cert.Kernel.Hand

end
-- ==== Proof.K.GcnBody.lean ====
/-
  Region 1: the body obligation of the Gcn kernel — at every grid point the body, run on the staging buffers the
  pipeline passes it and on the scratch accumulator, takes the region's invariant before the point to the invariant
  after it and leaves every window's buffer at what the proof data says.
-/
import proofs.«115208_j43868795961667_1_alg».proof.Proof.K.GcnData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Zero offsets of a rank-2 and of a rank-1 rectangle, however spelt. -/
theorem gcnZeros2 : (![0, 0] : Fin 2 → Nat) = fun _ => 0 := by funext a; fin_cases a <;> rfl
theorem gcnZeros1 : (![0] : Fin 1 → Nat) = fun _ => 0 := by funext a; fin_cases a; rfl

/-- Any list of stores whose LAST one fills the whole 2048 x 128 accumulator covers it. -/
theorem coverAcc1 (p : Vec F S2048x128 .f32) (L : List (View.Piece (Elt F) S2048x128 .f32)) (y : S2048x128.Idx) :
    ∃ pc ∈ ((⟨Rect.unit (s := S2048x128) ![0, 0] S2048x128.size inb_S2048x128_S2048x128_0_0, p⟩ : View.Piece (Elt F) S2048x128 .f32) :: L), y ∈ pc.1.set :=
  ⟨_, List.mem_cons_self, View.mem_set_unit_zero gcnZeros2 inb_S2048x128_S2048x128_0_0 y⟩

set_option maxHeartbeats 1000000 in
/-- First step of a reduction (k = 0): the accumulator, whatever it held, is zeroed and then receives the partial product of the two
    blocks; nothing else moves, the output block stays at what it was. -/
theorem sound_kernel1_reset (c : Dev nD) (E : Set ℕ) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128 .f32) (harg5 : arg5.IsWhole) (arg6 : Memref sig .tc .vmem S2048x128 .f32) (harg6 : arg6.IsWhole) (arg7 : Memref sig .tc .vmem S2048x128 .f32) (harg7 : arg7.IsWhole)
    (hc0 : cond1_0 i) (hc1 : ¬cond1_1 i)
    (x0 : Vec F S2048x2048 .f32) (x1 : Vec F S2048x128 .f32) (x2 : Vec F S2048x1 .f32) (x3 : Vec F S128 .f32) (xi4 : Vec F S2048x128 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k1_pay2 x0 x1 k1_pay1)) -∗ K ⟨⟩))
      ⊢ wp frame (wpE (defs₀ (F := F)) Variants.none c none) E (cc1__gcn_matmul_kernel i arg2 harg2 arg3 harg3 arg4 harg4 arg5 harg5 arg6 harg6 arg7 harg7) K := by
  simp only [cc1__gcn_matmul_kernel_eq_skeleton]; unfold cc1__gcn_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS0
  ipureintro
  sl_unfold_words
  rw [View.read_writes_eq_canon _ _ _ (coverAcc1 _ _), View.canon_cons_unit_zero (S := S2048x128) gcnZeros2]
  simp only [View.readAt_eq_ld, harg2.read_unread, harg3.read_unread, View.ld_unit_zero (S := S2048x2048) gcnZeros2, View.ld_unit_zero (S := S2048x128) gcnZeros2, View.readCov_unit_zero (S := S2048x128) _ gcnZeros2]

set_option maxHeartbeats 1000000 in
/-- A middle step of a reduction (k = 1, 2): the accumulator receives the partial product over what it held. -/
theorem sound_kernel1_step (c : Dev nD) (E : Set ℕ) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128 .f32) (harg5 : arg5.IsWhole) (arg6 : Memref sig .tc .vmem S2048x128 .f32) (harg6 : arg6.IsWhole) (arg7 : Memref sig .tc .vmem S2048x128 .f32) (harg7 : arg7.IsWhole)
    (hc0 : ¬cond1_0 i) (hc1 : ¬cond1_1 i)
    (x0 : Vec F S2048x2048 .f32) (x1 : Vec F S2048x128 .f32) (x2 : Vec F S2048x1 .f32) (x3 : Vec F S128 .f32) (xi4 : Vec F S2048x128 .f32) (xs : Vec F S2048x128 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k1_pay2 x0 x1 xs)) -∗ K ⟨⟩))
      ⊢ wp frame (wpE (defs₀ (F := F)) Variants.none c none) E (cc1__gcn_matmul_kernel i arg2 harg2 arg3 harg3 arg4 harg4 arg5 harg5 arg6 harg6 arg7 harg7) K := by
  simp only [cc1__gcn_matmul_kernel_eq_skeleton]; unfold cc1__gcn_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS0
  ipureintro
  sl_unfold_words
  rw [View.read_writes_eq_canon _ _ _ (coverAcc1 _ _), View.canon_cons_unit_zero (S := S2048x128) gcnZeros2]
  simp only [View.readAt_eq_ld, harg2.read_unread, harg3.read_unread, harg7.read_unread, View.ld_unit_zero (S := S2048x2048) gcnZeros2, View.ld_unit_zero (S := S2048x128) gcnZeros2]

set_option maxHeartbeats 1000000 in
/-- Last step of a reduction (k = 3): the accumulator receives the partial product over what it held, and the output block
    is stored at the epilogue of the finished accumulator, the degree column and the bias. -/
theorem sound_kernel1_last (c : Dev nD) (E : Set ℕ) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128 .f32) (harg5 : arg5.IsWhole) (arg6 : Memref sig .tc .vmem S2048x128 .f32) (harg6 : arg6.IsWhole) (arg7 : Memref sig .tc .vmem S2048x128 .f32) (harg7 : arg7.IsWhole)
    (hc0 : ¬cond1_0 i) (hc1 : cond1_1 i)
    (x0 : Vec F S2048x2048 .f32) (x1 : Vec F S2048x128 .f32) (x2 : Vec F S2048x1 .f32) (x3 : Vec F S128 .f32) (xs : Vec F S2048x128 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay3 (k1_pay2 x0 x1 xs) x2 x3) ∗ owns (c : Thread nD τ) arg7 fullShare (k1_pay2 x0 x1 xs)) -∗ K ⟨⟩))
      ⊢ wp frame (wpE (defs₀ (F := F)) Variants.none c none) E (cc1__gcn_matmul_kernel i arg2 harg2 arg3 harg3 arg4 harg4 arg5 harg5 arg6 harg6 arg7 harg7) K := by
  simp only [cc1__gcn_matmul_kernel_eq_skeleton]; unfold cc1__gcn_matmul_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg2.eq_unread hf0; obtain rfl := harg3.eq_unread hf1; obtain rfl := harg4.eq_unread hf2; obtain rfl := harg5.eq_unread hf3; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (coverAcc1 _ _), View.canon_cons_unit_zero (S := S2048x128) gcnZeros2]
    simp only [View.readAt_eq_ld, harg2.read_unread, harg3.read_unread, harg4.read_unread, harg5.read_unread, harg7.read_unread, View.ld_unit_zero (S := S2048x2048) gcnZeros2, View.ld_unit_zero (S := S2048x128) gcnZeros2, View.ld_unit_zero (S := S2048x1) gcnZeros2, View.ld_unit_zero (S := S128) gcnZeros1, View.readCov_unit_zero (S := S2048x128) _ gcnZeros2]
  iexists _; isplitr
  swap; · iexact HS0
  ipureintro
  sl_unfold_words
  rw [View.read_writes_eq_canon _ _ _ (coverAcc1 _ _), View.canon_cons_unit_zero (S := S2048x128) gcnZeros2]
  simp only [View.readAt_eq_ld, harg2.read_unread, harg3.read_unread, harg7.read_unread, View.ld_unit_zero (S := S2048x2048) gcnZeros2, View.ld_unit_zero (S := S2048x128) gcnZeros2]

/-- Out of the class invariant the accumulator, at whatever it holds, and the rest as what gives the invariant back. -/
theorem take_scratch1 (c : Dev nD) :
    (Pipeline.ΦA spec1 c : sProp 𝕄) ⊢ iprop((∃ d : Vec F S2048x128 .f32, owns (c : Thread nD τ) scM1 fullShare d) ∗ Rest1 (F := F) c) := by
  unfold Rest1 Pipeline.ΦA; rw [scopedRest1_eq]; simp only [scM1, owns_whole]
  iintro ⟨⟨H1, H2, H3, H4, HS, Hr⟩, Hg⟩
  isplitl [HS]; · iexact HS
  iintro HS
  isplitr [Hg]
  · isplitl [H1]; · iexact H1
    isplitl [H2]; · iexact H2
    isplitl [H3]; · iexact H3
    isplitl [H4]; · iexact H4
    isplitl [HS]; · iexact HS
    iexact Hr
  iexact Hg

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The four inputs' buffers hold the point's blocks; the position in the reduction (t mod 4) says which
    of the three runs applies; the invariant hands over the accumulator at what the point before left (at anything at the very
    first point, where it is taken out of the class invariant) and takes it back at this point's contents; off the last step
    the output buffer goes back as it came, at the last step it holds the epilogue of the finished accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [Phi1_castSucc V c t]
  have hN : t.val < 16 := lt_of_lt_of_eq t.isLt (show cfg1.N = 16 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1)]
    rw [acc1_reset V c t h0]
    by_cases hz : t.val = 0
    · rw [Phi1_zero V c _ _ hz]
      refine (sep_mono_left (take_scratch1 c)).trans ?_
      iintro ⟨⟨HS, Hr⟩, Ho, ⟨%d0, H0⟩, ⟨%d1, H1⟩, ⟨%d2, H2⟩, ⟨%d3, H3⟩, ⟨%d4, H4⟩⟩
      iapply (sound_kernel1_reset c Set.univ _ _ _ _ _ _ _ _ _ _ _ _ _ hc0 hc1 (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4
    · rw [Phi1_pos V c _ _ hz]
      iintro ⟨⟨HS, Hr⟩, Ho, ⟨%d0, H0⟩, ⟨%d1, H1⟩, ⟨%d2, H2⟩, ⟨%d3, H3⟩, ⟨%d4, H4⟩⟩
      iapply (sound_kernel1_reset c Set.univ _ _ _ _ _ _ _ _ _ _ _ _ _ hc0 hc1 (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond1_0 (grid1.coords t) := fun h => h0 ((hcond1_0 t).mp h)
    rw [Phi1_pos V c _ _ hz]
    by_cases h1 : t.val % 4 = 3
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [acc1_step V c t h0]
      iintro ⟨⟨HS, Hr⟩, Ho, ⟨%d0, H0⟩, ⟨%d1, H1⟩, ⟨%d2, H2⟩, ⟨%d3, H3⟩, ⟨%d4, H4⟩⟩
      iapply (sound_kernel1_last c Set.univ _ _ _ _ _ _ _ _ _ _ _ _ _ hc0 hc1 (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idleAt1_4 t hc1) (noFlush1_4 t hc1)]
      rw [acc1_step V c t h0]
      iintro ⟨⟨HS, Hr⟩, Ho, ⟨%d0, H0⟩, ⟨%d1, H1⟩, ⟨%d2, H2⟩, ⟨%d3, H3⟩, ⟨%d4, H4⟩⟩
      iapply (sound_kernel1_step c Set.univ _ _ _ _ _ _ _ _ _ _ _ _ _ hc0 hc1 (iblk1 V c 0 t) (iblk1 V c 1 t) (iblk1 V c 2 t) (iblk1 V c 3 t) ((dat1 V c).before 4 t d4) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.PoolData.lean ====
/-
  Region 2 of the program: the pooling matmul.  A 4 x 4 grid, rows outer, reduction inner.  At point (i, k) the body adds to a 1024 x 128 scratch accumulator (zeroed at k = 0) the product of block (i, k) of the coarsening matrix with block k of the hidden features, and at k = 3 stores max (acc @ W + b, 0) into block i of the result.  Here: the branch conditions in closed form, the accumulator after each point, the region's invariant and proof data.
-/
import proofs.«115208_j43868795961667_1_alg».proof.Proof.Gen.Kernel.Launch
import proofs.«115208_j43868795961667_1_alg».proof.Proof.Gen.Kernel.Skeleton
import proofs.«115208_j43868795961667_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the block of the point, fetched there or not, for any proof data that leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds the block of the point, fetched there or not, for any proof data that leaves it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds the block of the point, fetched there or not, for any proof data that leaves it in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds the block of the point, fetched there or not, for any proof data that leaves it in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions, decided over the grid: the reduction axis is the inner one, of extent 4 -/

/-- "first step of the reduction": the accumulator is reset. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- "last step of the reduction": the epilogue runs and the output block is stored. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Off the last reduction step the output window is idle and is not written back; at it, it is live. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- The staging memrefs the pipeline passes at point t, and the accumulator scratch. -/
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x128 .f32 := win2_4.stage (cfg2.slots t 4)
abbrev hs2_4 (t : Fin cfg2.N) : (ms2_4 t).IsWhole := hstage2_4 ((cfg2.slots t 4).cast nbuf2_4)
abbrev scM2 : Memref sig .tc .vmem S1024x128 .f32 := Memref.whole cc2_scratch0

/-! ## The accumulator after each point -/

/-- What the scratch accumulator holds after the body at position n: at the first step of a reduction the partial
    product of the point's two blocks over the zero fill; at a later step the same over what the step before left. -/
def acc2 (c : Dev nD) : (n : ℕ) → n < cfg2.N → Vec F S1024x128 .f32
  | 0, hn => k2_pay2 (iblk2 V c 0 ⟨0, hn⟩) (iblk2 V c 1 ⟨0, hn⟩) k2_pay1
  | n + 1, hn =>
    if (n + 1) % 4 = 0 then k2_pay2 (iblk2 V c 0 ⟨n + 1, hn⟩) (iblk2 V c 1 ⟨n + 1, hn⟩) k2_pay1
    else k2_pay2 (iblk2 V c 0 ⟨n + 1, hn⟩) (iblk2 V c 1 ⟨n + 1, hn⟩) (acc2 c n (Nat.lt_of_succ_lt hn))

theorem acc2_reset (c : Dev nD) (t : Fin cfg2.N) (h : t.val % 4 = 0) :
    acc2 V c t.val t.isLt = k2_pay2 (iblk2 V c 0 t) (iblk2 V c 1 t) k2_pay1 := by
  obtain ⟨n, hn⟩ := t
  cases n with
  | zero => rfl
  | succ n => exact (if_pos h)

theorem acc2_step (c : Dev nD) (t : Fin cfg2.N) (h : ¬t.val % 4 = 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n => exact (if_neg h)

/-! ## The region invariant: the accumulator at what the point before left, everything else the body never touches -/

/-- The scoped buffers other than the accumulator and the generator register, as what gives the class invariant back
    once the accumulator is returned at any contents. -/
def Rest2 (c : Dev nD) : sProp 𝕄 :=
  iprop((∃ d : Vec F S1024x128 .f32, owns (c : Thread nD τ) scM2 fullShare d) -∗ Pipeline.ΦA spec2 c)

def Phi2 (c : Dev nD) : (n : ℕ) → n ≤ cfg2.N → sProp 𝕄
  | 0, _ => Pipeline.ΦA spec2 c
  | n + 1, hn => iprop(owns (c : Thread nD τ) scM2 fullShare (acc2 V c n hn) ∗ Rest2 c)

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(owns (c : Thread nD τ) scM2 fullShare (acc2 V c n hn) ∗ Rest2 c) := rfl
theorem Phi2_pos (c : Dev nD) (n : ℕ) (h : n ≤ cfg2.N) (hz : n ≠ 0) :
    Phi2 V c n h = iprop(owns (c : Thread nD τ) scM2 fullShare (acc2 V c (n - 1) (by omega)) ∗ Rest2 c) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay3 (acc2 V c t.val t.isLt) (iblk2 V c 2 t) (iblk2 V c 3 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay3 (acc2 V c t.val t.isLt) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## What the launch hands the region, and what it takes back -/

theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht]
  unfold Rest2
  iintro ⟨HS, Hr⟩
  iapply Hr
  iexists _; iexact HS

theorem hout2 (c : Dev nD) : (dat2 V c).Φ (Fin.last cfg2.N) ⊢ Pipeline.ΦA spec2 c :=
  Phi2_out V c _ (by rw [Fin.val_last]; have : cfg2.N = 16 := N_2; omega)

end Cert.Kernel.Hand

end
-- ==== Proof.K.PoolBody.lean ====
/-
  Region 2: the body obligation of the pooling matmul — at every grid point the body, run on the staging buffers the
  pipeline passes it and on the scratch accumulator, takes the region's invariant before the point to the invariant
  after it and leaves every window's buffer at what the proof data says.
-/
import proofs.«115208_j43868795961667_1_alg».proof.Proof.K.PoolData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-block rectangles and their covers -/

/-- The zero offsets of a whole-block rectangle, however spelt: rank 2 and rank 1. -/
theorem hzPool2 : (![0, 0] : Fin 2 → Nat) = fun _ => 0 := by funext a; fin_cases a <;> rfl
theorem hzPool1 : (![0] : Fin 1 → Nat) = fun _ => 0 := by funext a; fin_cases a; rfl

/-- The whole 1024 x 128 block as a rectangle. -/
abbrev rAcc2 : Rect S1024x128 := Rect.unit (s := S1024x128) ![0, 0] S1024x128.size inb_S1024x128_S1024x128_0_0

/-- A list of stores whose last is a whole-block store covers the block. -/
theorem cover2_cons (p0 : Vec F S1024x128 .f32) (L : List (View.Piece (Elt F) S1024x128 .f32)) (y : S1024x128.Idx) :
    ∃ pc ∈ ((⟨rAcc2, p0⟩ : View.Piece (Elt F) S1024x128 .f32) :: L), y ∈ pc.1.set :=
  ⟨_, List.mem_cons_self, View.mem_set_unit_zero hzPool2 inb_S1024x128_S1024x128_0_0 y⟩

/-! ## The body on whole buffers, case by case -/

set_option maxHeartbeats 4800000 in
/-- First step of a reduction: the accumulator, at anything, is zeroed and then takes the point's partial product; the
    inputs and the output block are as they were. -/
theorem sound_kernel2_A (c : Dev nD) (E : Set ℕ) (i : grid2.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : ¬cond2_1 i)
    (x0 : Vec F S1024x2048 .f32) (x1 : Vec F S2048x128 .f32) (x2 : Vec F S128x128 .f32) (x3 : Vec F S128 .f32) (xi4 : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (k2_pay2 x0 x1 k2_pay1)) -∗ K ⟨⟩))
      ⊢ wp frame (wpE (defs₀ (F := F)) Variants.none c none) E (cc2__pool_matmul_kernel i arg2 harg2 arg3 harg3 arg4 harg4 arg5 harg5 arg6 harg6 arg7 harg7) K := by
  simp only [cc2__pool_matmul_kernel_eq_skeleton]; unfold cc2__pool_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  iexists _; isplitr
  swap; · iexact HS
  ipureintro
  rw [View.read_writes_eq_canon _ _ _ (cover2_cons _ _)]
  sl_unfold_words
  rw [View.canon_cons_unit_zero hzPool2]
  simp only [View.readAt_eq_ld, View.ld_unit_zero (S := S1024x2048) hzPool2, View.ld_unit_zero (S := S2048x128) hzPool2, View.readCov_unit_zero (S := S1024x128) _ hzPool2]

set_option maxHeartbeats 4800000 in
/-- A middle step: the accumulator, at what the step before left, takes the point's partial product on top. -/
theorem sound_kernel2_B (c : Dev nD) (E : Set ℕ) (i : grid2.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : ¬cond2_1 i)
    (x0 : Vec F S1024x2048 .f32) (x1 : Vec F S2048x128 .f32) (x2 : Vec F S128x128 .f32) (x3 : Vec F S128 .f32) (xi4 : Vec F S1024x128 .f32) (xs : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (k2_pay2 x0 x1 xs)) -∗ K ⟨⟩))
      ⊢ wp frame (wpE (defs₀ (F := F)) Variants.none c none) E (cc2__pool_matmul_kernel i arg2 harg2 arg3 harg3 arg4 harg4 arg5 harg5 arg6 harg6 arg7 harg7) K := by
  simp only [cc2__pool_matmul_kernel_eq_skeleton]; unfold cc2__pool_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  iexists _; isplitr
  swap; · iexact HS
  ipureintro
  rw [View.read_writes_eq_canon _ _ _ (cover2_cons _ _)]
  sl_unfold_words
  rw [View.canon_cons_unit_zero hzPool2]
  simp only [View.readAt_eq_ld, View.ld_unit_zero (S := S1024x2048) hzPool2, View.ld_unit_zero (S := S2048x128) hzPool2, View.ld_unit_zero (S := S1024x128) hzPool2]

set_option maxHeartbeats 4800000 in
/-- Last step: the accumulator takes the point's partial product, and the output block, at anything, is stored at the
    epilogue of the new accumulator with the weights and the bias. -/
theorem sound_kernel2_C (c : Dev nD) (E : Set ℕ) (i : grid2.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : cond2_1 i)
    (x0 : Vec F S1024x2048 .f32) (x1 : Vec F S2048x128 .f32) (x2 : Vec F S128x128 .f32) (x3 : Vec F S128 .f32) (xs : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k2_pay3 (k2_pay2 x0 x1 xs) x2 x3) ∗ owns (c : Thread nD τ) arg7 fullShare (k2_pay2 x0 x1 xs)) -∗ K ⟨⟩))
      ⊢ wp frame (wpE (defs₀ (F := F)) Variants.none c none) E (cc2__pool_matmul_kernel i arg2 harg2 arg3 harg3 arg4 harg4 arg5 harg5 arg6 harg6 arg7 harg7) K := by
  simp only [cc2__pool_matmul_kernel_eq_skeleton]; unfold cc2__pool_matmul_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover2_cons _ _)]
    sl_unfold_words
    rw [View.canon_cons_unit_zero hzPool2]
    simp only [View.readAt_eq_ld, View.ld_unit_zero (S := S1024x2048) hzPool2, View.ld_unit_zero (S := S2048x128) hzPool2, View.ld_unit_zero (S := S1024x128) hzPool2, View.ld_unit_zero (S := S128x128) hzPool2, View.ld_unit_zero (S := S128) hzPool1, View.readCov_unit_zero (S := S1024x128) _ hzPool2]
  iexists _; isplitr
  swap; · iexact HS
  ipureintro
  sl_unfold_words
  rw [View.read_writes_eq_canon _ _ _ (cover2_cons _ _)]
  rw [View.canon_cons_unit_zero hzPool2]
  simp only [View.readAt_eq_ld, View.ld_unit_zero (S := S1024x2048) hzPool2, View.ld_unit_zero (S := S2048x128) hzPool2, View.ld_unit_zero (S := S1024x128) hzPool2]

/-! ## The accumulator out of the region's invariant -/

/-- The class invariant hands out the accumulator at some contents, and takes it back at any. -/
theorem PhiA2_split (c : Dev nD) :
    (Pipeline.ΦA spec2 c : sProp 𝕄) ⊢ iprop((∃ d : Vec F S1024x128 .f32, owns (c : Thread nD τ) scM2 fullShare d) ∗ Rest2 (F := F) c) := by
  unfold Rest2 Pipeline.ΦA; rw [scopedRest2_eq]; simp only [scM2, owns_whole]
  iintro ⟨⟨H1, H2, H3, H4, H5, H6, H7, H8, H9, H10, H11, H12, H13, H14, H15⟩, Hg⟩
  isplitl [H15]; · iexact H15
  iintro H15
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- Before any point the invariant hands out the accumulator at some contents. -/
theorem Phi2_any (c : Dev nD) (n : ℕ) (h : n ≤ cfg2.N) :
    Phi2 V c n h ⊢ iprop((∃ d : Vec F S1024x128 .f32, owns (c : Thread nD τ) scM2 fullShare d) ∗ Rest2 (F := F) c) := by
  cases n with
  | zero => exact PhiA2_split c
  | succ n =>
    rw [Phi2_succ]
    iintro ⟨HS, HR⟩
    isplitl [HS]; · iexists _; iexact HS
    iexact HR

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' buffers hold their blocks; the position in the reduction says which case
    the point is in; the invariant hands the body the accumulator (at what the step before left, at anything at a
    first step) and takes it back at this point's contents, the rest of it untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [Phi2_castSucc V c t]
  have hN : t.val < 16 := lt_of_lt_of_eq t.isLt (show cfg2.N = 16 from N_2)
  by_cases h0 : t.val % 4 = 0
  · have hc0 : cond2_0 (grid2.coords t) := (hcond2_0 t).mpr h0
    have hc1 : ¬cond2_1 (grid2.coords t) := fun h => by have := (hcond2_1 t).mp h; omega
    rw [Dat.leavesExact_idle (dat2 V c) 4 t (idleAt2_4 t hc1) (noFlush2_4 t hc1)]
    rw [acc2_reset V c t h0]
    refine (sep_mono_left (Phi2_any V c _ _)).trans ?_
    iintro ⟨⟨⟨%ds, HS⟩, HR⟩, Ho, ⟨%d0, H0⟩, ⟨%d1, H1⟩, ⟨%d2, H2⟩, ⟨%d3, H3⟩, ⟨%d4, H4⟩⟩
    iapply (sound_kernel2_A c Set.univ (grid2.coords t) _ _ _ _ _ _ _ _ _ _ _ _ hc0 hc1 (iblk2 V c 0 t) (iblk2 V c 1 t) (iblk2 V c 2 t) (iblk2 V c 3 t) ((dat2 V c).before 4 t d4) _)
    isplitl [H0]; · iexact H0
    isplitl [H1]; · iexact H1
    isplitl [H2]; · iexact H2
    isplitl [H3]; · iexact H3
    isplitl [H4]; · iexact H4
    isplitl [HS]; · iexists _; iexact HS
    iintro ⟨H0, H1, H2, H3, H4, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    iexists _; iexact H4
  · have hc0 : ¬cond2_0 (grid2.coords t) := fun h => h0 ((hcond2_0 t).mp h)
    have hz : t.val ≠ 0 := fun h => h0 (by rw [h])
    rw [Phi2_pos V c _ _ hz, acc2_step V c t h0]
    by_cases h1 : t.val % 4 = 3
    · have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4 t hc1], after2_4, acc2_step V c t h0]
      iintro ⟨⟨HS, HR⟩, Ho, ⟨%d0, H0⟩, ⟨%d1, H1⟩, ⟨%d2, H2⟩, ⟨%d3, H3⟩, ⟨%d4, H4⟩⟩
      iapply (sound_kernel2_C c Set.univ (grid2.coords t) _ _ _ _ _ _ _ _ _ _ _ _ hc0 hc1 (iblk2 V c 0 t) (iblk2 V c 1 t) (iblk2 V c 2 t) (iblk2 V c 3 t) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · have hc1 : ¬cond2_1 (grid2.coords t) := fun h => h1 ((hcond2_1 t).mp h)
      rw [Dat.leavesExact_idle (dat2 V c) 4 t (idleAt2_4 t hc1) (noFlush2_4 t hc1)]
      iintro ⟨⟨HS, HR⟩, Ho, ⟨%d0, H0⟩, ⟨%d1, H1⟩, ⟨%d2, H2⟩, ⟨%d3, H3⟩, ⟨%d4, H4⟩⟩
      iapply (sound_kernel2_B c Set.univ (grid2.coords t) _ _ _ _ _ _ _ _ _ _ _ _ hc0 hc1 (iblk2 V c 0 t) (iblk2 V c 1 t) (iblk2 V c 2 t) (iblk2 V c 3 t) ((dat2 V c).before 4 t d4) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of the whole program at any element instance: the three kernel regions and the host stretch between the
  first two as the segments of one launch.  The contents of the buffers at each segment boundary are a fold from the
  launch memory: a region leaves its windows' arrays at what its write-backs produce and every other buffer as
  entered; the host stretch applies its three operations.  Every weakly fair execution terminates, and at the end
  every unscoped buffer holds the last boundary's contents.
-/
import proofs.«115208_j43868795961667_1_alg».proof.Proof.K.Deg
import proofs.«115208_j43868795961667_1_alg».proof.Proof.K.GcnBody
import proofs.«115208_j43868795961667_1_alg».proof.Proof.K.PoolBody
import proofs.«115208_j43868795961667_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit (the end of the program). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at W0, left at W1. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (hin1 (V2 m ρ) c)
    unfold Pipeline.ΦA
    isplitl [Hr]; · iexact Hr
    iexact Hp
  hout c := by
    rw [Pipeline.ownSems0_none, show (pdats m ρ 1 c).Φ (Fin.last _) = (dat1 (V2 m ρ) c).Φ (Fin.last cfg1.N) from rfl]
    have h := hout1 (V2 m ρ) c
    unfold Pipeline.ΦA at h
    iintro HH
    ihave HP := h $$ HH
    icases HP with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W3, left at W4. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V3 m ρ) c).Φ 0 from rfl]
    iintro ⟨Hp, -, Hr⟩
    iapply (hin2 (V3 m ρ) c)
    unfold Pipeline.ΦA
    isplitl [Hr]; · iexact Hr
    iexact Hp
  hout c := by
    rw [Pipeline.ownSems0_none, show (pdats m ρ 2 c).Φ (Fin.last _) = (dat2 (V3 m ρ) c).Φ (Fin.last cfg2.N) from rfl]
    have h := hout2 (V3 m ρ) c
    unfold Pipeline.ΦA at h
    iintro HH
    ihave HP := h $$ HH
    icases HP with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.K.Frame.lean ====
/-
  The frame of the program, read off its run: no host operation writes an argument array, and a region either does
  not stage it or stages it through an input window, which the write-backs never touch; so the fold of the boundary
  contents, read at an argument, walks back to the launch memory.  The result array ends at what region 2's
  write-backs leave.
-/
import proofs.«115208_j43868795961667_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window's array leaves its region as it entered. -/
theorem W1_in (c : Dev nD) (w : Fin cfg0.W) (hin : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hin _).trans (A_eq0 (V0 m ρ) c w))
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
theorem W4_in (c : Dev nD) (w : Fin cfg2.W) (hin : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hin _).trans (A_eq2 (V3 m ρ) c w))
/-- The host stretch writes its three results only. -/
theorem W2_keep (c : Dev nD) (r : Ref sig .tc) (h : r ∉ hostOps1_W) : W2 m ρ c (Proc.devRef .tc r) = W1 m ρ c (Proc.devRef .tc r) :=
  StableHlo.after_of_writes_sub hostOps1 _ hostOps1_writes h

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_keep m ρ c main_arg0 (by decide)
    _ = W0 m ρ c (Proc.devRef .tc main_arg0) := W1_of_ne m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_in m ρ c 0 rfl
    _ = W1 m ρ c (Proc.devRef .tc main_arg1) := W2_keep m ρ c main_arg1 (by decide)
    _ = W0 m ρ c (Proc.devRef .tc main_arg1) := W1_in m ρ c 0 rfl
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_in m ρ c 0 rfl
    _ = W2 m ρ c (Proc.devRef .tc main_arg2) := W3_of_ne m ρ c main_arg2 (by decide)
    _ = W1 m ρ c (Proc.devRef .tc main_arg2) := W2_keep m ρ c main_arg2 (by decide)
    _ = W0 m ρ c (Proc.devRef .tc main_arg2) := W1_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_keep m ρ c main_arg3 (by decide)
    _ = W0 m ρ c (Proc.devRef .tc main_arg3) := W1_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_in m ρ c 3 rfl
    _ = W1 m ρ c (Proc.devRef .tc main_arg4) := W2_keep m ρ c main_arg4 (by decide)
    _ = W0 m ρ c (Proc.devRef .tc main_arg4) := W1_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_in m ρ c 2 rfl
    _ = W2 m ρ c (Proc.devRef .tc main_arg5) := W3_of_ne m ρ c main_arg5 (by decide)
    _ = W1 m ρ c (Proc.devRef .tc main_arg5) := W2_keep m ρ c main_arg5 (by decide)
    _ = W0 m ρ c (Proc.devRef .tc main_arg5) := W1_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_in m ρ c 3 rfl
    _ = W2 m ρ c (Proc.devRef .tc main_arg6) := W3_of_ne m ρ c main_arg6 (by decide)
    _ = W1 m ρ c (Proc.devRef .tc main_arg6) := W2_keep m ρ c main_arg6 (by decide)
    _ = W0 m ρ c (Proc.devRef .tc main_arg6) := W1_of_ne m ρ c main_arg6 (by decide)
    _ = m ((c : Thread nD τ).loc main_arg6) := rfl

/-- THE RUN, read at the result and the arguments: the result array at what region 2's write-backs leave, every
    argument as launched. -/
theorem run_result : θ_run defs (onTc (τ := τ) (main (F := F))) ⟨m, fun _ => 0, ρ⟩ (fun r => ∀ c : Dev nD,
      r.2.mem ((c.tc : Thread nD τ).loc main_v5) = (dat2 (V3 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v5 (by decide))).trans (W4_arr m ρ c 4),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result m ρ)

end Cert.Kernel.Hand

end
-- ==== Proof.KI.Deg.lean ====
/-
  Region 0 of the program: the row-degree kernel.  One grid axis of 16 points; at point t the body
  reads the 512 x 8192 block of rows [512 t, 512 t + 512) of the adjacency matrix and stores, for each
  of those rows, d = (s > 0 ? rsqrt (max s 1e-12) : 0) with s the row's sum, into the 512 x 1 block of
  the result column.  Here: what the block holds after the body as a function of the input block, the
  body's triple, and the pipeline's proof data with its body obligation, at any element instance and
  for any contents V of the buffers at the region's entry.
-/
import proofs.«115208_j43868795961667_1_alg».proof.Proof.Gen.KernelIdeal.Launch
import proofs.«115208_j43868795961667_1_alg».proof.Proof.Gen.KernelIdeal.Skeleton
import proofs.«115208_j43868795961667_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the block of the point, for any proof data that leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512 x 8192 input block and the whole 512 x 1 output block, as rectangles. -/
abbrev rIn0 : Rect S512x8192 := Rect.unit (s := S512x8192) ![0, 0] S512x8192.size inb_S512x8192_S512x8192_0_0
abbrev rOut0 : Rect S512x1 := Rect.unit (s := S512x1) ![0, 0] S512x1.size inb_S512x1_S512x1_0_0

/-- What the body leaves in the output block: the one whole-block store of the degree payload of the input block. -/
def out0_1 (x0 : Vec F S512x8192 .f32) : Vec F S512x1 .f32 :=
  View.canon [⟨rOut0, k0_pay1 (View.ld x0 rIn0)⟩]

theorem cover0_1 (p0 : Vec F S512x1 .f32) (y : S512x1.Idx) :
    ∃ pc ∈ ([⟨rOut0, p0⟩] : List (View.Piece (Elt F) S512x1 .f32)), y ∈ pc.1.set :=
  View.cover_of_tiled [⟨rOut0, p0⟩] S512x1.size (by rfl) y

set_option maxHeartbeats 1000000 in
/-- The body on whole staging buffers: the input kept, the output at the degree column of the input block. -/
theorem sound_kernel0 (c : Dev nD) (E : Set ℕ) (i : grid0.Coords) (arg1 : Memref sig .tc .vmem S512x8192 .f32) (harg1 : arg1.IsWhole) (arg2 : Memref sig .tc .vmem S512x1 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.GcnData.lean ====
/-
  Region 1 of the program: the graph-convolution matmul.  A 4 x 4 grid, rows outer, reduction inner.  At point (i, k) the body adds to a 2048 x 128 scratch accumulator (zeroed at k = 0) the product of block (i, k) of the adjacency matrix with block k of the scaled features, and at k = 3 stores max (acc * d + b, 0) into block i of the result.  Here: the branch conditions in closed form, the accumulator after each point, the region's invariant and proof data.
-/
import proofs.«115208_j43868795961667_1_alg».proof.Proof.Gen.KernelIdeal.Launch
import proofs.«115208_j43868795961667_1_alg».proof.Proof.Gen.KernelIdeal.Skeleton
import proofs.«115208_j43868795961667_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the block of the point, fetched there or not, for any proof data that leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the block of the point, fetched there or not, for any proof data that leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds the block of the point, fetched there or not, for any proof data that leaves it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds the block of the point, fetched there or not, for any proof data that leaves it in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, decided over the grid: the reduction axis is the inner one, of extent 4 -/

/-- "first step of the reduction": the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "last step of the reduction": the epilogue runs and the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last reduction step the output window is idle and is not written back; at it, it is live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- The staging memrefs the pipeline passes at point t, and the accumulator scratch. -/
abbrev ms1_0 (t : Fin cfg1.N) : Memref sig .tc .vmem S2048x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x128 .f32 := win1_4.stage (cfg1.slots t 4)
abbrev hs1_4 (t : Fin cfg1.N) : (ms1_4 t).IsWhole := hstage1_4 ((cfg1.slots t 4).cast nbuf1_4)
abbrev scM1 : Memref sig .tc .vmem S2048x128 .f32 := Memref.whole cc1_scratch0

/-! ## The accumulator after each point -/

/-- What the scratch accumulator holds after the body at position n: at the first step of a reduction the partial
    product of the point's two blocks over the zero fill; at a later step the same over what the step before left. -/
def acc1 (c : Dev nD) : (n : ℕ) → n < cfg1.N → Vec F S2048x128 .f32
  | 0, hn => k1_pay2 (iblk1 V c 0 ⟨0, hn⟩) (iblk1 V c 1 ⟨0, hn⟩) k1_pay1
  | n + 1, hn =>
    if (n + 1) % 4 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

theorem acc1_reset (c : Dev nD) (t : Fin cfg1.N) (h : t.val % 4 = 0) :
    acc1 V c t.val t.isLt = k1_pay2 (iblk1 V c 0 t) (iblk1 V c 1 t) k1_pay1 := by
  obtain ⟨n, hn⟩ := t
  cases n with
  | zero => rfl
  | succ n => exact (if_pos h)

theorem acc1_step (c : Dev nD) (t : Fin cfg1.N) (h : ¬t.val % 4 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact (if_neg h)

/-! ## The region invariant: the accumulator at what the point before left, everything else the body never touches -/

/-- The scoped buffers other than the accumulator and the generator register, as what gives the class invariant back
    once the accumulator is returned at any contents. -/
def Rest1 (c : Dev nD) : sProp 𝕄 :=
  iprop((∃ d : Vec F S2048x128 .f32, owns (c : Thread nD τ) scM1 fullShare d) -∗ Pipeline.ΦA spec1 c)

def Phi1 (c : Dev nD) : (n : ℕ) → n ≤ cfg1.N → sProp 𝕄
  | 0, _ => Pipeline.ΦA spec1 c
  | n + 1, hn => iprop(owns (c : Thread nD τ) scM1 fullShare (acc1 V c n hn) ∗ Rest1 c)

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(owns (c : Thread nD τ) scM1 fullShare (acc1 V c n hn) ∗ Rest1 c) := rfl
theorem Phi1_pos (c : Dev nD) (n : ℕ) (h : n ≤ cfg1.N) (hz : n ≠ 0) :
    Phi1 V c n h = iprop(owns (c : Thread nD τ) scM1 fullShare (acc1 V c (n - 1) (by omega)) ∗ Rest1 c) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val t.isLt) (iblk1 V c 2 t) (iblk1 V c 3 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (acc1 V c t.val t.isLt) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## What the launch hands the region, and what it takes back -/

theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht]
  unfold Rest1
  iintro ⟨HS, Hr⟩
  iapply Hr
  iexists _; iexact HS

theorem hout1 (c : Dev nD) : (dat1 V c).Φ (Fin.last cfg1.N) ⊢ Pipeline.ΦA spec1 c :=
  Phi1_out V c _ (by rw [Fin.val_last]; have : cfg1.N = 16 := N_1; omega)

end Cert.KernelIdeal.Hand

end
-- ==== Proof.KI.GcnBody.lean ====
/-
  Region 1: the body obligation of the Gcn kernel — at every grid point the body, run on the staging buffers the
  pipeline passes it and on the scratch accumulator, takes the region's invariant before the point to the invariant
  after it and leaves every window's buffer at what the proof data says.
-/
import proofs.«115208_j43868795961667_1_alg».proof.Proof.KI.GcnData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Zero offsets of a rank-2 and of a rank-1 rectangle, however spelt. -/
theorem gcnZeros2 : (![0, 0] : Fin 2 → Nat) = fun _ => 0 := by funext a; fin_cases a <;> rfl
theorem gcnZeros1 : (![0] : Fin 1 → Nat) = fun _ => 0 := by funext a; fin_cases a; rfl

/-- Any list of stores whose LAST one fills the whole 2048 x 128 accumulator covers it. -/
theorem coverAcc1 (p : Vec F S2048x128 .f32) (L : List (View.Piece (Elt F) S2048x128 .f32)) (y : S2048x128.Idx) :
    ∃ pc ∈ ((⟨Rect.unit (s := S2048x128) ![0, 0] S2048x128.size inb_S2048x128_S2048x128_0_0, p⟩ : View.Piece (Elt F) S2048x128 .f32) :: L), y ∈ pc.1.set :=
  ⟨_, List.mem_cons_self, View.mem_set_unit_zero gcnZeros2 inb_S2048x128_S2048x128_0_0 y⟩

set_option maxHeartbeats 1000000 in
/-- First step of a reduction (k = 0): the accumulator, whatever it held, is zeroed and then receives the partial product of the two
    blocks; nothing else moves, the output block stays at what it was. -/
theorem sound_kernel1_reset (c : Dev nD) (E : Set ℕ) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128 .f32) (harg5 : arg5.IsWhole) (arg6 : Memref sig .tc .vmem S2048x128 .f32) (harg6 : arg6.IsWhole) (arg7 : Memref sig .tc .vmem S2048x128 .f32) (harg7 : arg7.IsWhole)
    (hc0 : cond1_0 i) (hc1 : ¬cond1_1 i)
    (x0 : Vec F S2048x2048 .f32) (x1 : Vec F S2048x128 .f32) (x2 : Vec F S2048x1 .f32) (x3 : Vec F S128 .f32) (xi4 : Vec F S2048x128 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k1_pay2 x0 x1 k1_pay1)) -∗ K ⟨⟩))
      ⊢ wp frame (wpE (defs₀ (F := F)) Variants.none c none) E (cc1__gcn_matmul_kernel i arg2 harg2 arg3 harg3 arg4 harg4 arg5 harg5 arg6 harg6 arg7 harg7) K := by
  simp only [cc1__gcn_matmul_kernel_eq_skeleton]; unfold cc1__gcn_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS0
  ipureintro
  sl_unfold_words
  rw [View.read_writes_eq_canon _ _ _ (coverAcc1 _ _), View.canon_cons_unit_zero (S := S2048x128) gcnZeros2]
  simp only [View.readAt_eq_ld, harg2.read_unread, harg3.read_unread, View.ld_unit_zero (S := S2048x2048) gcnZeros2, View.ld_unit_zero (S := S2048x128) gcnZeros2, View.readCov_unit_zero (S := S2048x128) _ gcnZeros2]

set_option maxHeartbeats 1000000 in
/-- A middle step of a reduction (k = 1, 2): the accumulator receives the partial product over what it held. -/
theorem sound_kernel1_step (c : Dev nD) (E : Set ℕ) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128 .f32) (harg5 : arg5.IsWhole) (arg6 : Memref sig .tc .vmem S2048x128 .f32) (harg6 : arg6.IsWhole) (arg7 : Memref sig .tc .vmem S2048x128 .f32) (harg7 : arg7.IsWhole)
    (hc0 : ¬cond1_0 i) (hc1 : ¬cond1_1 i)
    (x0 : Vec F S2048x2048 .f32) (x1 : Vec F S2048x128 .f32) (x2 : Vec F S2048x1 .f32) (x3 : Vec F S128 .f32) (xi4 : Vec F S2048x128 .f32) (xs : Vec F S2048x128 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k1_pay2 x0 x1 xs)) -∗ K ⟨⟩))
      ⊢ wp frame (wpE (defs₀ (F := F)) Variants.none c none) E (cc1__gcn_matmul_kernel i arg2 harg2 arg3 harg3 arg4 harg4 arg5 harg5 arg6 harg6 arg7 harg7) K := by
  simp only [cc1__gcn_matmul_kernel_eq_skeleton]; unfold cc1__gcn_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS0
  ipureintro
  sl_unfold_words
  rw [View.read_writes_eq_canon _ _ _ (coverAcc1 _ _), View.canon_cons_unit_zero (S := S2048x128) gcnZeros2]
  simp only [View.readAt_eq_ld, harg2.read_unread, harg3.read_unread, harg7.read_unread, View.ld_unit_zero (S := S2048x2048) gcnZeros2, View.ld_unit_zero (S := S2048x128) gcnZeros2]

set_option maxHeartbeats 1000000 in
/-- Last step of a reduction (k = 3): the accumulator receives the partial product over what it held, and the output block
    is stored at the epilogue of the finished accumulator, the degree column and the bias. -/
theorem sound_kernel1_last (c : Dev nD) (E : Set ℕ) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128 .f32) (harg5 : arg5.IsWhole) (arg6 : Memref sig .tc .vmem S2048x128 .f32) (harg6 : arg6.IsWhole) (arg7 : Memref sig .tc .vmem S2048x128 .f32) (harg7 : arg7.IsWhole)
    (hc0 : ¬cond1_0 i) (hc1 : cond1_1 i)
    (x0 : Vec F S2048x2048 .f32) (x1 : Vec F S2048x128 .f32) (x2 : Vec F S2048x1 .f32) (x3 : Vec F S128 .f32) (xs : Vec F S2048x128 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay3 (k1_pay2 x0 x1 xs) x2 x3) ∗ owns (c : Thread nD τ) arg7 fullShare (k1_pay2 x0 x1 xs)) -∗ K ⟨⟩))
      ⊢ wp frame (wpE (defs₀ (F := F)) Variants.none c none) E (cc1__gcn_matmul_kernel i arg2 harg2 arg3 harg3 arg4 harg4 arg5 harg5 arg6 harg6 arg7 harg7) K := by
  simp only [cc1__gcn_matmul_kernel_eq_skeleton]; unfold cc1__gcn_matmul_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg2.eq_unread hf0; obtain rfl := harg3.eq_unread hf1; obtain rfl := harg4.eq_unread hf2; obtain rfl := harg5.eq_unread hf3; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (coverAcc1 _ _), View.canon_cons_unit_zero (S := S2048x128) gcnZeros2]
    simp only [View.readAt_eq_ld, harg2.read_unread, harg3.read_unread, harg4.read_unread, harg5.read_unread, harg7.read_unread, View.ld_unit_zero (S := S2048x2048) gcnZeros2, View.ld_unit_zero (S := S2048x128) gcnZeros2, View.ld_unit_zero (S := S2048x1) gcnZeros2, View.ld_unit_zero (S := S128) gcnZeros1, View.readCov_unit_zero (S := S2048x128) _ gcnZeros2]
  iexists _; isplitr
  swap; · iexact HS0
  ipureintro
  sl_unfold_words
  rw [View.read_writes_eq_canon _ _ _ (coverAcc1 _ _), View.canon_cons_unit_zero (S := S2048x128) gcnZeros2]
  simp only [View.readAt_eq_ld, harg2.read_unread, harg3.read_unread, harg7.read_unread, View.ld_unit_zero (S := S2048x2048) gcnZeros2, View.ld_unit_zero (S := S2048x128) gcnZeros2]

/-- Out of the class invariant the accumulator, at whatever it holds, and the rest as what gives the invariant back. -/
theorem take_scratch1 (c : Dev nD) :
    (Pipeline.ΦA spec1 c : sProp 𝕄) ⊢ iprop((∃ d : Vec F S2048x128 .f32, owns (c : Thread nD τ) scM1 fullShare d) ∗ Rest1 (F := F) c) := by
  unfold Rest1 Pipeline.ΦA; rw [scopedRest1_eq]; simp only [scM1, owns_whole]
  iintro ⟨⟨H1, H2, H3, H4, HS, Hr⟩, Hg⟩
  isplitl [HS]; · iexact HS
  iintro HS
  isplitr [Hg]
  · isplitl [H1]; · iexact H1
    isplitl [H2]; · iexact H2
    isplitl [H3]; · iexact H3
    isplitl [H4]; · iexact H4
    isplitl [HS]; · iexact HS
    iexact Hr
  iexact Hg

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The four inputs' buffers hold the point's blocks; the position in the reduction (t mod 4) says which
    of the three runs applies; the invariant hands over the accumulator at what the point before left (at anything at the very
    first point, where it is taken out of the class invariant) and takes it back at this point's contents; off the last step
    the output buffer goes back as it came, at the last step it holds the epilogue of the finished accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [Phi1_castSucc V c t]
  have hN : t.val < 16 := lt_of_lt_of_eq t.isLt (show cfg1.N = 16 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1)]
    rw [acc1_reset V c t h0]
    by_cases hz : t.val = 0
    · rw [Phi1_zero V c _ _ hz]
      refine (sep_mono_left (take_scratch1 c)).trans ?_
      iintro ⟨⟨HS, Hr⟩, Ho, ⟨%d0, H0⟩, ⟨%d1, H1⟩, ⟨%d2, H2⟩, ⟨%d3, H3⟩, ⟨%d4, H4⟩⟩
      iapply (sound_kernel1_reset c Set.univ _ _ _ _ _ _ _ _ _ _ _ _ _ hc0 hc1 (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4
    · rw [Phi1_pos V c _ _ hz]
      iintro ⟨⟨HS, Hr⟩, Ho, ⟨%d0, H0⟩, ⟨%d1, H1⟩, ⟨%d2, H2⟩, ⟨%d3, H3⟩, ⟨%d4, H4⟩⟩
      iapply (sound_kernel1_reset c Set.univ _ _ _ _ _ _ _ _ _ _ _ _ _ hc0 hc1 (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond1_0 (grid1.coords t) := fun h => h0 ((hcond1_0 t).mp h)
    rw [Phi1_pos V c _ _ hz]
    by_cases h1 : t.val % 4 = 3
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [acc1_step V c t h0]
      iintro ⟨⟨HS, Hr⟩, Ho, ⟨%d0, H0⟩, ⟨%d1, H1⟩, ⟨%d2, H2⟩, ⟨%d3, H3⟩, ⟨%d4, H4⟩⟩
      iapply (sound_kernel1_last c Set.univ _ _ _ _ _ _ _ _ _ _ _ _ _ hc0 hc1 (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idleAt1_4 t hc1) (noFlush1_4 t hc1)]
      rw [acc1_step V c t h0]
      iintro ⟨⟨HS, Hr⟩, Ho, ⟨%d0, H0⟩, ⟨%d1, H1⟩, ⟨%d2, H2⟩, ⟨%d3, H3⟩, ⟨%d4, H4⟩⟩
      iapply (sound_kernel1_step c Set.univ _ _ _ _ _ _ _ _ _ _ _ _ _ hc0 hc1 (iblk1 V c 0 t) (iblk1 V c 1 t) (iblk1 V c 2 t) (iblk1 V c 3 t) ((dat1 V c).before 4 t d4) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.PoolData.lean ====
/-
  Region 2 of the program: the pooling matmul.  A 4 x 4 grid, rows outer, reduction inner.  At point (i, k) the body adds to a 1024 x 128 scratch accumulator (zeroed at k = 0) the product of block (i, k) of the coarsening matrix with block k of the hidden features, and at k = 3 stores max (acc @ W + b, 0) into block i of the result.  Here: the branch conditions in closed form, the accumulator after each point, the region's invariant and proof data.
-/
import proofs.«115208_j43868795961667_1_alg».proof.Proof.Gen.KernelIdeal.Launch
import proofs.«115208_j43868795961667_1_alg».proof.Proof.Gen.KernelIdeal.Skeleton
import proofs.«115208_j43868795961667_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the block of the point, fetched there or not, for any proof data that leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds the block of the point, fetched there or not, for any proof data that leaves it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds the block of the point, fetched there or not, for any proof data that leaves it in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds the block of the point, fetched there or not, for any proof data that leaves it in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions, decided over the grid: the reduction axis is the inner one, of extent 4 -/

/-- "first step of the reduction": the accumulator is reset. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- "last step of the reduction": the epilogue runs and the output block is stored. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Off the last reduction step the output window is idle and is not written back; at it, it is live. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- The staging memrefs the pipeline passes at point t, and the accumulator scratch. -/
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x128 .f32 := win2_4.stage (cfg2.slots t 4)
abbrev hs2_4 (t : Fin cfg2.N) : (ms2_4 t).IsWhole := hstage2_4 ((cfg2.slots t 4).cast nbuf2_4)
abbrev scM2 : Memref sig .tc .vmem S1024x128 .f32 := Memref.whole cc2_scratch0

/-! ## The accumulator after each point -/

/-- What the scratch accumulator holds after the body at position n: at the first step of a reduction the partial
    product of the point's two blocks over the zero fill; at a later step the same over what the step before left. -/
def acc2 (c : Dev nD) : (n : ℕ) → n < cfg2.N → Vec F S1024x128 .f32
  | 0, hn => k2_pay2 (iblk2 V c 0 ⟨0, hn⟩) (iblk2 V c 1 ⟨0, hn⟩) k2_pay1
  | n + 1, hn =>
    if (n + 1) % 4 = 0 then k2_pay2 (iblk2 V c 0 ⟨n + 1, hn⟩) (iblk2 V c 1 ⟨n + 1, hn⟩) k2_pay1
    else k2_pay2 (iblk2 V c 0 ⟨n + 1, hn⟩) (iblk2 V c 1 ⟨n + 1, hn⟩) (acc2 c n (Nat.lt_of_succ_lt hn))

theorem acc2_reset (c : Dev nD) (t : Fin cfg2.N) (h : t.val % 4 = 0) :
    acc2 V c t.val t.isLt = k2_pay2 (iblk2 V c 0 t) (iblk2 V c 1 t) k2_pay1 := by
  obtain ⟨n, hn⟩ := t
  cases n with
  | zero => rfl
  | succ n => exact (if_pos h)

theorem acc2_step (c : Dev nD) (t : Fin cfg2.N) (h : ¬t.val % 4 = 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n => exact (if_neg h)

/-! ## The region invariant: the accumulator at what the point before left, everything else the body never touches -/

/-- The scoped buffers other than the accumulator and the generator register, as what gives the class invariant back
    once the accumulator is returned at any contents. -/
def Rest2 (c : Dev nD) : sProp 𝕄 :=
  iprop((∃ d : Vec F S1024x128 .f32, owns (c : Thread nD τ) scM2 fullShare d) -∗ Pipeline.ΦA spec2 c)

def Phi2 (c : Dev nD) : (n : ℕ) → n ≤ cfg2.N → sProp 𝕄
  | 0, _ => Pipeline.ΦA spec2 c
  | n + 1, hn => iprop(owns (c : Thread nD τ) scM2 fullShare (acc2 V c n hn) ∗ Rest2 c)

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(owns (c : Thread nD τ) scM2 fullShare (acc2 V c n hn) ∗ Rest2 c) := rfl
theorem Phi2_pos (c : Dev nD) (n : ℕ) (h : n ≤ cfg2.N) (hz : n ≠ 0) :
    Phi2 V c n h = iprop(owns (c : Thread nD τ) scM2 fullShare (acc2 V c (n - 1) (by omega)) ∗ Rest2 c) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay3 (acc2 V c t.val t.isLt) (iblk2 V c 2 t) (iblk2 V c 3 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay3 (acc2 V c t.val t.isLt) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## What the launch hands the region, and what it takes back -/

theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht]
  unfold Rest2
  iintro ⟨HS, Hr⟩
  iapply Hr
  iexists _; iexact HS

theorem hout2 (c : Dev nD) : (dat2 V c).Φ (Fin.last cfg2.N) ⊢ Pipeline.ΦA spec2 c :=
  Phi2_out V c _ (by rw [Fin.val_last]; have : cfg2.N = 16 := N_2; omega)

end Cert.KernelIdeal.Hand

end
-- ==== Proof.KI.PoolBody.lean ====
/-
  Region 2: the body obligation of the pooling matmul — at every grid point the body, run on the staging buffers the
  pipeline passes it and on the scratch accumulator, takes the region's invariant before the point to the invariant
  after it and leaves every window's buffer at what the proof data says.
-/
import proofs.«115208_j43868795961667_1_alg».proof.Proof.KI.PoolData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-block rectangles and their covers -/

/-- The zero offsets of a whole-block rectangle, however spelt: rank 2 and rank 1. -/
theorem hzPool2 : (![0, 0] : Fin 2 → Nat) = fun _ => 0 := by funext a; fin_cases a <;> rfl
theorem hzPool1 : (![0] : Fin 1 → Nat) = fun _ => 0 := by funext a; fin_cases a; rfl

/-- The whole 1024 x 128 block as a rectangle. -/
abbrev rAcc2 : Rect S1024x128 := Rect.unit (s := S1024x128) ![0, 0] S1024x128.size inb_S1024x128_S1024x128_0_0

/-- A list of stores whose last is a whole-block store covers the block. -/
theorem cover2_cons (p0 : Vec F S1024x128 .f32) (L : List (View.Piece (Elt F) S1024x128 .f32)) (y : S1024x128.Idx) :
    ∃ pc ∈ ((⟨rAcc2, p0⟩ : View.Piece (Elt F) S1024x128 .f32) :: L), y ∈ pc.1.set :=
  ⟨_, List.mem_cons_self, View.mem_set_unit_zero hzPool2 inb_S1024x128_S1024x128_0_0 y⟩

/-! ## The body on whole buffers, case by case -/

set_option maxHeartbeats 4800000 in
/-- First step of a reduction: the accumulator, at anything, is zeroed and then takes the point's partial product; the
    inputs and the output block are as they were. -/
theorem sound_kernel2_A (c : Dev nD) (E : Set ℕ) (i : grid2.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : ¬cond2_1 i)
    (x0 : Vec F S1024x2048 .f32) (x1 : Vec F S2048x128 .f32) (x2 : Vec F S128x128 .f32) (x3 : Vec F S128 .f32) (xi4 : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (k2_pay2 x0 x1 k2_pay1)) -∗ K ⟨⟩))
      ⊢ wp frame (wpE (defs₀ (F := F)) Variants.none c none) E (cc2__pool_matmul_kernel i arg2 harg2 arg3 harg3 arg4 harg4 arg5 harg5 arg6 harg6 arg7 harg7) K := by
  simp only [cc2__pool_matmul_kernel_eq_skeleton]; unfold cc2__pool_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  iexists _; isplitr
  swap; · iexact HS
  ipureintro
  rw [View.read_writes_eq_canon _ _ _ (cover2_cons _ _)]
  sl_unfold_words
  rw [View.canon_cons_unit_zero hzPool2]
  simp only [View.readAt_eq_ld, View.ld_unit_zero (S := S1024x2048) hzPool2, View.ld_unit_zero (S := S2048x128) hzPool2, View.readCov_unit_zero (S := S1024x128) _ hzPool2]

set_option maxHeartbeats 4800000 in
/-- A middle step: the accumulator, at what the step before left, takes the point's partial product on top. -/
theorem sound_kernel2_B (c : Dev nD) (E : Set ℕ) (i : grid2.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : ¬cond2_1 i)
    (x0 : Vec F S1024x2048 .f32) (x1 : Vec F S2048x128 .f32) (x2 : Vec F S128x128 .f32) (x3 : Vec F S128 .f32) (xi4 : Vec F S1024x128 .f32) (xs : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (k2_pay2 x0 x1 xs)) -∗ K ⟨⟩))
      ⊢ wp frame (wpE (defs₀ (F := F)) Variants.none c none) E (cc2__pool_matmul_kernel i arg2 harg2 arg3 harg3 arg4 harg4 arg5 harg5 arg6 harg6 arg7 harg7) K := by
  simp only [cc2__pool_matmul_kernel_eq_skeleton]; unfold cc2__pool_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  iexists _; isplitr
  swap; · iexact HS
  ipureintro
  rw [View.read_writes_eq_canon _ _ _ (cover2_cons _ _)]
  sl_unfold_words
  rw [View.canon_cons_unit_zero hzPool2]
  simp only [View.readAt_eq_ld, View.ld_unit_zero (S := S1024x2048) hzPool2, View.ld_unit_zero (S := S2048x128) hzPool2, View.ld_unit_zero (S := S1024x128) hzPool2]

set_option maxHeartbeats 4800000 in
/-- Last step: the accumulator takes the point's partial product, and the output block, at anything, is stored at the
    epilogue of the new accumulator with the weights and the bias. -/
theorem sound_kernel2_C (c : Dev nD) (E : Set ℕ) (i : grid2.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : cond2_1 i)
    (x0 : Vec F S1024x2048 .f32) (x1 : Vec F S2048x128 .f32) (x2 : Vec F S128x128 .f32) (x3 : Vec F S128 .f32) (xs : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k2_pay3 (k2_pay2 x0 x1 xs) x2 x3) ∗ owns (c : Thread nD τ) arg7 fullShare (k2_pay2 x0 x1 xs)) -∗ K ⟨⟩))
      ⊢ wp frame (wpE (defs₀ (F := F)) Variants.none c none) E (cc2__pool_matmul_kernel i arg2 harg2 arg3 harg3 arg4 harg4 arg5 harg5 arg6 harg6 arg7 harg7) K := by
  simp only [cc2__pool_matmul_kernel_eq_skeleton]; unfold cc2__pool_matmul_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover2_cons _ _)]
    sl_unfold_words
    rw [View.canon_cons_unit_zero hzPool2]
    simp only [View.readAt_eq_ld, View.ld_unit_zero (S := S1024x2048) hzPool2, View.ld_unit_zero (S := S2048x128) hzPool2, View.ld_unit_zero (S := S1024x128) hzPool2, View.ld_unit_zero (S := S128x128) hzPool2, View.ld_unit_zero (S := S128) hzPool1, View.readCov_unit_zero (S := S1024x128) _ hzPool2]
  iexists _; isplitr
  swap; · iexact HS
  ipureintro
  sl_unfold_words
  rw [View.read_writes_eq_canon _ _ _ (cover2_cons _ _)]
  rw [View.canon_cons_unit_zero hzPool2]
  simp only [View.readAt_eq_ld, View.ld_unit_zero (S := S1024x2048) hzPool2, View.ld_unit_zero (S := S2048x128) hzPool2, View.ld_unit_zero (S := S1024x128) hzPool2]

/-! ## The accumulator out of the region's invariant -/

/-- The class invariant hands out the accumulator at some contents, and takes it back at any. -/
theorem PhiA2_split (c : Dev nD) :
    (Pipeline.ΦA spec2 c : sProp 𝕄) ⊢ iprop((∃ d : Vec F S1024x128 .f32, owns (c : Thread nD τ) scM2 fullShare d) ∗ Rest2 (F := F) c) := by
  unfold Rest2 Pipeline.ΦA; rw [scopedRest2_eq]; simp only [scM2, owns_whole]
  iintro ⟨⟨H1, H2, H3, H4, H5, H6, H7, H8, H9, H10, H11, H12, H13, H14, H15⟩, Hg⟩
  isplitl [H15]; · iexact H15
  iintro H15
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- Before any point the invariant hands out the accumulator at some contents. -/
theorem Phi2_any (c : Dev nD) (n : ℕ) (h : n ≤ cfg2.N) :
    Phi2 V c n h ⊢ iprop((∃ d : Vec F S1024x128 .f32, owns (c : Thread nD τ) scM2 fullShare d) ∗ Rest2 (F := F) c) := by
  cases n with
  | zero => exact PhiA2_split c
  | succ n =>
    rw [Phi2_succ]
    iintro ⟨HS, HR⟩
    isplitl [HS]; · iexists _; iexact HS
    iexact HR

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' buffers hold their blocks; the position in the reduction says which case
    the point is in; the invariant hands the body the accumulator (at what the step before left, at anything at a
    first step) and takes it back at this point's contents, the rest of it untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [Phi2_castSucc V c t]
  have hN : t.val < 16 := lt_of_lt_of_eq t.isLt (show cfg2.N = 16 from N_2)
  by_cases h0 : t.val % 4 = 0
  · have hc0 : cond2_0 (grid2.coords t) := (hcond2_0 t).mpr h0
    have hc1 : ¬cond2_1 (grid2.coords t) := fun h => by have := (hcond2_1 t).mp h; omega
    rw [Dat.leavesExact_idle (dat2 V c) 4 t (idleAt2_4 t hc1) (noFlush2_4 t hc1)]
    rw [acc2_reset V c t h0]
    refine (sep_mono_left (Phi2_any V c _ _)).trans ?_
    iintro ⟨⟨⟨%ds, HS⟩, HR⟩, Ho, ⟨%d0, H0⟩, ⟨%d1, H1⟩, ⟨%d2, H2⟩, ⟨%d3, H3⟩, ⟨%d4, H4⟩⟩
    iapply (sound_kernel2_A c Set.univ (grid2.coords t) _ _ _ _ _ _ _ _ _ _ _ _ hc0 hc1 (iblk2 V c 0 t) (iblk2 V c 1 t) (iblk2 V c 2 t) (iblk2 V c 3 t) ((dat2 V c).before 4 t d4) _)
    isplitl [H0]; · iexact H0
    isplitl [H1]; · iexact H1
    isplitl [H2]; · iexact H2
    isplitl [H3]; · iexact H3
    isplitl [H4]; · iexact H4
    isplitl [HS]; · iexists _; iexact HS
    iintro ⟨H0, H1, H2, H3, H4, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    iexists _; iexact H4
  · have hc0 : ¬cond2_0 (grid2.coords t) := fun h => h0 ((hcond2_0 t).mp h)
    have hz : t.val ≠ 0 := fun h => h0 (by rw [h])
    rw [Phi2_pos V c _ _ hz, acc2_step V c t h0]
    by_cases h1 : t.val % 4 = 3
    · have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4 t hc1], after2_4, acc2_step V c t h0]
      iintro ⟨⟨HS, HR⟩, Ho, ⟨%d0, H0⟩, ⟨%d1, H1⟩, ⟨%d2, H2⟩, ⟨%d3, H3⟩, ⟨%d4, H4⟩⟩
      iapply (sound_kernel2_C c Set.univ (grid2.coords t) _ _ _ _ _ _ _ _ _ _ _ _ hc0 hc1 (iblk2 V c 0 t) (iblk2 V c 1 t) (iblk2 V c 2 t) (iblk2 V c 3 t) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · have hc1 : ¬cond2_1 (grid2.coords t) := fun h => h1 ((hcond2_1 t).mp h)
      rw [Dat.leavesExact_idle (dat2 V c) 4 t (idleAt2_4 t hc1) (noFlush2_4 t hc1)]
      iintro ⟨⟨HS, HR⟩, Ho, ⟨%d0, H0⟩, ⟨%d1, H1⟩, ⟨%d2, H2⟩, ⟨%d3, H3⟩, ⟨%d4, H4⟩⟩
      iapply (sound_kernel2_B c Set.univ (grid2.coords t) _ _ _ _ _ _ _ _ _ _ _ _ hc0 hc1 (iblk2 V c 0 t) (iblk2 V c 1 t) (iblk2 V c 2 t) (iblk2 V c 3 t) ((dat2 V c).before 4 t d4) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of the whole program at any element instance: the three kernel regions and the host stretch between the
  first two as the segments of one launch.  The contents of the buffers at each segment boundary are a fold from the
  launch memory: a region leaves its windows' arrays at what its write-backs produce and every other buffer as
  entered; the host stretch applies its three operations.  Every weakly fair execution terminates, and at the end
  every unscoped buffer holds the last boundary's contents.
-/
import proofs.«115208_j43868795961667_1_alg».proof.Proof.KI.Deg
import proofs.«115208_j43868795961667_1_alg».proof.Proof.KI.GcnBody
import proofs.«115208_j43868795961667_1_alg».proof.Proof.KI.PoolBody
import proofs.«115208_j43868795961667_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit (the end of the program). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at W0, left at W1. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (hin1 (V2 m ρ) c)
    unfold Pipeline.ΦA
    isplitl [Hr]; · iexact Hr
    iexact Hp
  hout c := by
    rw [Pipeline.ownSems0_none, show (pdats m ρ 1 c).Φ (Fin.last _) = (dat1 (V2 m ρ) c).Φ (Fin.last cfg1.N) from rfl]
    have h := hout1 (V2 m ρ) c
    unfold Pipeline.ΦA at h
    iintro HH
    ihave HP := h $$ HH
    icases HP with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W3, left at W4. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V3 m ρ) c).Φ 0 from rfl]
    iintro ⟨Hp, -, Hr⟩
    iapply (hin2 (V3 m ρ) c)
    unfold Pipeline.ΦA
    isplitl [Hr]; · iexact Hr
    iexact Hp
  hout c := by
    rw [Pipeline.ownSems0_none, show (pdats m ρ 2 c).Φ (Fin.last _) = (dat2 (V3 m ρ) c).Φ (Fin.last cfg2.N) from rfl]
    have h := hout2 (V3 m ρ) c
    unfold Pipeline.ΦA at h
    iintro HH
    ihave HP := h $$ HH
    icases HP with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KI.Frame.lean ====
/-
  The frame of the program, read off its run: no host operation writes an argument array, and a region either does
  not stage it or stages it through an input window, which the write-backs never touch; so the fold of the boundary
  contents, read at an argument, walks back to the launch memory.  The result array ends at what region 2's
  write-backs leave.
-/
import proofs.«115208_j43868795961667_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window's array leaves its region as it entered. -/
theorem W1_in (c : Dev nD) (w : Fin cfg0.W) (hin : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hin _).trans (A_eq0 (V0 m ρ) c w))
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
theorem W4_in (c : Dev nD) (w : Fin cfg2.W) (hin : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hin _).trans (A_eq2 (V3 m ρ) c w))
/-- The host stretch writes its three results only. -/
theorem W2_keep (c : Dev nD) (r : Ref sig .tc) (h : r ∉ hostOps1_W) : W2 m ρ c (Proc.devRef .tc r) = W1 m ρ c (Proc.devRef .tc r) :=
  StableHlo.after_of_writes_sub hostOps1 _ hostOps1_writes h

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_keep m ρ c main_arg0 (by decide)
    _ = W0 m ρ c (Proc.devRef .tc main_arg0) := W1_of_ne m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_in m ρ c 0 rfl
    _ = W1 m ρ c (Proc.devRef .tc main_arg1) := W2_keep m ρ c main_arg1 (by decide)
    _ = W0 m ρ c (Proc.devRef .tc main_arg1) := W1_in m ρ c 0 rfl
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_in m ρ c 0 rfl
    _ = W2 m ρ c (Proc.devRef .tc main_arg2) := W3_of_ne m ρ c main_arg2 (by decide)
    _ = W1 m ρ c (Proc.devRef .tc main_arg2) := W2_keep m ρ c main_arg2 (by decide)
    _ = W0 m ρ c (Proc.devRef .tc main_arg2) := W1_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_keep m ρ c main_arg3 (by decide)
    _ = W0 m ρ c (Proc.devRef .tc main_arg3) := W1_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_in m ρ c 3 rfl
    _ = W1 m ρ c (Proc.devRef .tc main_arg4) := W2_keep m ρ c main_arg4 (by decide)
    _ = W0 m ρ c (Proc.devRef .tc main_arg4) := W1_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_in m ρ c 2 rfl
    _ = W2 m ρ c (Proc.devRef .tc main_arg5) := W3_of_ne m ρ c main_arg5 (by decide)
    _ = W1 m ρ c (Proc.devRef .tc main_arg5) := W2_keep m ρ c main_arg5 (by decide)
    _ = W0 m ρ c (Proc.devRef .tc main_arg5) := W1_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_in m ρ c 3 rfl
    _ = W2 m ρ c (Proc.devRef .tc main_arg6) := W3_of_ne m ρ c main_arg6 (by decide)
    _ = W1 m ρ c (Proc.devRef .tc main_arg6) := W2_keep m ρ c main_arg6 (by decide)
    _ = W0 m ρ c (Proc.devRef .tc main_arg6) := W1_of_ne m ρ c main_arg6 (by decide)
    _ = m ((c : Thread nD τ).loc main_arg6) := rfl

/-- THE RUN, read at the result and the arguments: the result array at what region 2's write-backs leave, every
    argument as launched. -/
theorem run_result : θ_run defs (onTc (τ := τ) (main (F := F))) ⟨m, fun _ => 0, ρ⟩ (fun r => ∀ c : Dev nD,
      r.2.mem ((c.tc : Thread nD τ).loc main_v5) = (dat2 (V3 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v5 (by decide))).trans (W4_arr m ρ c 4),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result m ρ)

end Cert.KernelIdeal.Hand

end
-- ==== Proof.Spec.lean ====
/-
  The mathematics of the two programs, over the extended reals, with no program in sight.

  Both compute, from a feature matrix X [8192 x 128], an adjacency matrix A [8192 x 8192], a coarsening matrix
  C [4096 x 8192], weights W_in, W_out [128 x 128] and biases b_in, b_out [128]:
      s_i   = sum_j A_ij                      d_i = (s_i > 0 ? rsqrt (max s_i eps) : 0)
      H_if  = max (sum_j (d_i A_ij d_j) (X W_in)_jf + b_in_f, 0)
      out   = max ((C H) W_out + b_out, 0).
  The reference forms the normalised matrix d_i A_ij d_j and multiplies; the kernel scales the rows of X W_in by d
  before the product, accumulates the product over four column blocks of 2048, and scales the rows of the result by d
  afterwards.  Over finite inputs every quantity is a real number and the two arrangements agree by distributivity.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Arrays of rank 2 and 1 at the ideal values. -/
abbrev A2 (n0 n1 : ℕ) : Type := (⟨2, ![n0, n1]⟩ : Shape).Idx → EReal
abbrev A1 (n : ℕ) : Type := (⟨1, ![n]⟩ : Shape).Idx → EReal

/-- The two float literals of the programs, kept as their words. -/
abbrev zeroW : EReal := Ideal.ofBits .f32 0x00000000#32
abbrev epsW : EReal := Ideal.ofBits .f32 0x2B8CBCCC#32

/-- The degree scaling of a row sum s: rsqrt (max s eps) where s > 0, else 0. -/
def dOf (s : EReal) : EReal :=
  Scalar.select (FloatOps.cmpf (F := Ideal) (φ := .f32) .ogt s zeroW) (Ideal.rsqrt (max s epsW)) zeroW

/-- The sum of a function on the 8192 column positions over the k-th block of 2048. -/
def blk (g : Fin 8192 → EReal) (k : Fin 4) : EReal := ∑ j : Fin 2048, g ⟨2048 * k.val + j.val, by omega⟩
/-- The kernel's accumulator after its four reduction steps: the four block sums added in order onto the zero fill. -/
def acc4 (g : Fin 8192 → EReal) : EReal := (((zeroW + blk g 0) + blk g 1) + blk g 2) + blk g 3

/-! ## The kernel's stages -/

/-- Region 0: the column of degree scalings (the kernel's row sum has no initial term). -/
def degK (A : A2 8192 8192) : A2 8192 1 :=
  fun ix => dOf (∑ j : Fin 8192, A (ix2 (⟨(ix 0).val, idx2_lt0 ix⟩ : Fin 8192) j))

/-- The host stretch: the rows of X W_in scaled by d. -/
def xwsK (D : A2 8192 1) (X : A2 8192 128) (W : A2 128 128) : A2 8192 128 :=
  fun ix => D (ix2 (⟨(ix 0).val, idx2_lt0 ix⟩ : Fin 8192) (0 : Fin 1))
    * ∑ k : Fin 128, X (ix2 (⟨(ix 0).val, idx2_lt0 ix⟩ : Fin 8192) k) * W (ix2 k (⟨(ix 1).val, idx2_lt1 ix⟩ : Fin 128))

/-- Region 1: the accumulated product, scaled by d, plus the bias, clamped at zero. -/
def hK (A : A2 8192 8192) (XWs : A2 8192 128) (D : A2 8192 1) (b : A1 128) : A2 8192 128 :=
  fun ix => max (acc4 (fun j => A (ix2 (⟨(ix 0).val, idx2_lt0 ix⟩ : Fin 8192) j) * XWs (ix2 j (⟨(ix 1).val, idx2_lt1 ix⟩ : Fin 128)))
      * D (ix2 (⟨(ix 0).val, idx2_lt0 ix⟩ : Fin 8192) (0 : Fin 1)) + b (ix1 (⟨(ix 1).val, idx2_lt1 ix⟩ : Fin 128))) zeroW

/-- Region 2: the accumulated pooling product, times W_out, plus the bias, clamped at zero. -/
def oK (C : A2 4096 8192) (H : A2 8192 128) (W : A2 128 128) (b : A1 128) : A2 4096 128 :=
  fun ix => max ((∑ k : Fin 128, acc4 (fun j => C (ix2 (⟨(ix 0).val, idx2_lt0 ix⟩ : Fin 4096) j) * H (ix2 j k))
      * W (ix2 k (⟨(ix 1).val, idx2_lt1 ix⟩ : Fin 128))) + b (ix1 (⟨(ix 1).val, idx2_lt1 ix⟩ : Fin 128))) zeroW

/-- The kernel's result. -/
def kernelOut (X : A2 8192 128) (A : A2 8192 8192) (C : A2 4096 8192) (Win : A2 128 128) (bin : A1 128) (Wout : A2 128 128) (bout : A1 128) : A2 4096 128 :=
  oK C (hK A (xwsK (degK A) X Win) (degK A) bin) Wout bout

/-! ## The reference's stages -/

/-- The reference's degree scaling of row i (its host sum starts from the zero word). -/
def degR (A : A2 8192 8192) (i : Fin 8192) : EReal := dOf (zeroW + ∑ j : Fin 8192, A (ix2 i j))

/-- The reference's hidden features. -/
def hR (X : A2 8192 128) (A : A2 8192 8192) (Win : A2 128 128) (bin : A1 128) : A2 8192 128 :=
  fun ix => max ((∑ j : Fin 8192, ((degR A (⟨(ix 0).val, idx2_lt0 ix⟩ : Fin 8192) * A (ix2 (⟨(ix 0).val, idx2_lt0 ix⟩ : Fin 8192) j)) * degR A j)
        * ∑ k : Fin 128, X (ix2 j k) * Win (ix2 k (⟨(ix 1).val, idx2_lt1 ix⟩ : Fin 128)))
      + bin (ix1 (⟨(ix 1).val, idx2_lt1 ix⟩ : Fin 128))) zeroW

/-- The reference's result. -/
def refOut (X : A2 8192 128) (A : A2 8192 8192) (C : A2 4096 8192) (Win : A2 128 128) (bin : A1 128) (Wout : A2 128 128) (bout : A1 128) : A2 4096 128 :=
  fun ix => max ((∑ k : Fin 128, (∑ j : Fin 8192, C (ix2 (⟨(ix 0).val, idx2_lt0 ix⟩ : Fin 4096) j) * hR X A Win bin (ix2 j k))
      * Wout (ix2 k (⟨(ix 1).val, idx2_lt1 ix⟩ : Fin 128))) + bout (ix1 (⟨(ix 1).val, idx2_lt1 ix⟩ : Fin 128))) zeroW

/-! ## The two agree on finite inputs -/

/-- An array all of whose entries are real numbers. -/
def Fin2 {n0 n1 : ℕ} (A : A2 n0 n1) : Prop := ∀ ix, ∃ r : ℝ, A ix = (r : EReal)

/-! ### Coercions out of finite sums -/

/-- The coercion of the reals commutes with finite sums. -/
theorem coe_sum {ι : Type*} (s : Finset ι) (f : ι → ℝ) :
    ((∑ j ∈ s, f j : ℝ) : EReal) = ∑ j ∈ s, (f j : EReal) := by
  classical
  refine Finset.induction_on s ?_ ?_
  · simp
  · intro a s ha ih
    rw [Finset.sum_insert ha, Finset.sum_insert ha, EReal.coe_add, ih]

/-- The zero word is the number zero. -/
theorem zeroW_eq : zeroW = 0 := Ideal.ofBits_zero_f32

/-! ### The blocked sum -/

/-- A block sum, read through the product decomposition of the column positions. -/
theorem blk_eq (g : Fin 8192 → EReal) (k : Fin 4) :
    blk g k = ∑ j : Fin 2048, g (finProdFinEquiv (m := 4) (n := 2048) (k, j)) := by
  unfold blk
  refine Finset.sum_congr rfl fun j _ => ?_
  congr 1
  refine Fin.ext ?_
  show 2048 * k.val + j.val = j.val + 2048 * k.val
  omega

/-- The accumulator's blocked sum is the whole sum (addition of extended reals is commutative and associative). -/
theorem acc4_eq (g : Fin 8192 → EReal) : acc4 g = ∑ j : Fin 8192, g j := by
  have e : ∑ j : Fin 8192, g j = ∑ p : Fin 4 × Fin 2048, g (finProdFinEquiv (m := 4) (n := 2048) p) :=
    (Equiv.sum_comp (finProdFinEquiv (m := 4) (n := 2048)) g).symm
  rw [e, Fintype.sum_prod_type, Fin.sum_univ_four]
  unfold acc4
  rw [zeroW_eq, zero_add, blk_eq, blk_eq, blk_eq, blk_eq]

/-! ### The degree scaling of a real row sum is a real number -/

/-- For a real s the scaling dOf s is a real number: where s > 0 the argument max s eps of the reciprocal root is
    positive (whatever eps is), so the root is a positive real or, at +infinity, zero; elsewhere dOf s = 0. -/
theorem dOf_coe (s : ℝ) : ∃ r : ℝ, dOf (s : EReal) = (r : EReal) := by
  unfold dOf Scalar.select
  by_cases hlt : zeroW < (s : EReal)
  · have hc : FloatOps.cmpf (F := Ideal) (φ := .f32) .ogt (s : EReal) zeroW = 1 := by
      show BitVec.ofBool (decide (zeroW < (s : EReal))) = 1
      rw [decide_eq_true hlt]; rfl
    rw [if_pos hc]
    have hm : (0 : EReal) < max (s : EReal) epsW := lt_max_of_lt_left (zeroW_eq ▸ hlt)
    generalize max (s : EReal) epsW = m at hm
    induction m using EReal.rec with
    | bot => exact absurd hm not_lt_bot
    | top => exact ⟨0, rfl⟩
    | coe r =>
      have hr : 0 < r := by exact_mod_cast hm
      rw [Ideal.rsqrt_coe, if_neg (not_lt.mpr hr.le), if_neg hr.ne']
      exact ⟨_, rfl⟩
  · have hc : ¬ FloatOps.cmpf (F := Ideal) (φ := .f32) .ogt (s : EReal) zeroW = 1 := by
      show ¬ BitVec.ofBool (decide (zeroW < (s : EReal))) = 1
      rw [decide_eq_false hlt]; decide
    rw [if_neg hc]
    exact ⟨0, zeroW_eq⟩

/-! ### Distributivity over real factors -/

/-- Scaling the rows of the second factor before a product over real entries and the rows of the result afterwards
    is the product with the two-sided scaled first factor. -/
theorem scale_law {ι : Type*} [Fintype ι] (a d x : ι → ℝ) (di : ℝ) :
    (∑ j, (a j : EReal) * ((d j : EReal) * (x j : EReal))) * (di : EReal)
      = ∑ j, (((di : EReal) * (a j : EReal)) * (d j : EReal)) * (x j : EReal) := by
  simp only [← EReal.coe_mul]
  rw [← coe_sum, ← coe_sum, ← EReal.coe_mul]
  congr 1
  rw [Finset.sum_mul]
  exact Finset.sum_congr rfl fun j _ => by ring

/-! ### The hidden features agree -/

/-- Over real entries the kernel's hidden features (rows of X W_in scaled first, rows of the product scaled after)
    are the reference's (the two-sided scaled adjacency times X W_in). -/
theorem hK_eq_hR (X : A2 8192 128) (A : A2 8192 8192) (Win : A2 128 128) (bin : A1 128)
    (hX : Fin2 X) (hA : Fin2 A) (hW : Fin2 Win) :
    hK A (xwsK (degK A) X Win) (degK A) bin = hR X A Win bin := by
  choose a ha using hA
  choose x hx using hX
  choose w hw using hW
  choose dr hdr using dOf_coe
  -- the row sums of A are real numbers
  have hs : ∀ i : Fin 8192, ∑ j : Fin 8192, A (ix2 i j) = ((∑ j : Fin 8192, a (ix2 i j) : ℝ) : EReal) := fun i => by
    rw [coe_sum]; exact Finset.sum_congr rfl fun j _ => ha _
  -- the entries of X W_in are real numbers
  have hxw : ∀ (j : Fin 8192) (f : Fin 128), ∑ k : Fin 128, X (ix2 j k) * Win (ix2 k f)
      = ((∑ k : Fin 128, x (ix2 j k) * w (ix2 k f) : ℝ) : EReal) := fun j f => by
    rw [coe_sum]; refine Finset.sum_congr rfl fun k _ => ?_; rw [hx, hw, EReal.coe_mul]
  -- both degree scalings are the same real number
  have hdK : ∀ (i : Fin 8192) (z : Fin 1), degK A (ix2 i z) = ((dr (∑ j : Fin 8192, a (ix2 i j)) : ℝ) : EReal) := fun i z => by
    show dOf (∑ j : Fin 8192, A (ix2 i j)) = _
    rw [hs, hdr]
  have hdR : ∀ i : Fin 8192, degR A i = ((dr (∑ j : Fin 8192, a (ix2 i j)) : ℝ) : EReal) := fun i => by
    unfold degR; rw [zeroW_eq, zero_add, hs, hdr]
  funext ix
  obtain ⟨i, f, rfl⟩ : ∃ (i : Fin 8192) (f : Fin 128), ix = ix2 i f := ⟨ix 0, ix 1, eq_ix2 ix⟩
  show max (acc4 (fun j => A (ix2 i j) * xwsK (degK A) X Win (ix2 j f)) * degK A (ix2 i 0) + bin (ix1 f)) zeroW
     = max ((∑ j : Fin 8192, ((degR A i * A (ix2 i j)) * degR A j) * ∑ k : Fin 128, X (ix2 j k) * Win (ix2 k f))
        + bin (ix1 f)) zeroW
  refine congrArg (fun t => max (t + bin (ix1 f)) zeroW) ?_
  have hterm : ∀ j : Fin 8192, A (ix2 i j) * xwsK (degK A) X Win (ix2 j f)
      = (a (ix2 i j) : EReal) * (((dr (∑ j' : Fin 8192, a (ix2 j j')) : ℝ) : EReal)
          * ((∑ k : Fin 128, x (ix2 j k) * w (ix2 k f) : ℝ) : EReal)) := fun j => by
    show A (ix2 i j) * (degK A (ix2 j 0) * ∑ k : Fin 128, X (ix2 j k) * Win (ix2 k f)) = _
    rw [ha, hdK, hxw]
  rw [acc4_eq, Finset.sum_congr rfl (fun j _ => hterm j), hdK, scale_law]
  refine Finset.sum_congr rfl fun j _ => ?_
  rw [hdR, hdR, ha, hxw]

/-- THE ALGEBRA: over finite X, A and W_in the kernel's arrangement and the reference's are one function. -/
theorem kernelOut_eq_refOut (X : A2 8192 128) (A : A2 8192 8192) (C : A2 4096 8192) (Win : A2 128 128) (bin : A1 128) (Wout : A2 128 128) (bout : A1 128)
    (hX : Fin2 X) (hA : Fin2 A) (hW : Fin2 Win) :
    kernelOut X A C Win bin Wout bout = refOut X A C Win bin Wout bout := by
  unfold kernelOut refOut oK
  rw [hK_eq_hR X A Win bin hX hA hW]
  funext ix
  simp only [acc4_eq]

end Cert.Spec

end
-- ==== Proof.LibColumns.lean ====
/-
  Layout operations of the "keepdims" kind read at an index, and the index a one-axis reduction sums over.

  A row-wise reduction `[a, b] → [a]` that keeps its axis is printed as the reduction, a cast of the `[a]` result to the
  column `[a, 1]`, and a broadcast of that column back over `[a, b]`. Each lemma reads one of these at an index given by
  its coordinates: the column at `(r, ·)` is the vector at `r`; the broadcast at `(r, c)` is the column at `r`; and the
  indices a reduction along axis 1 (or axis 0) sums over, for the kept coordinate `r`, are `(r, k)` (or `(k, r)`).
-/
import Idealize.ShloMosaic.Lib.Pipeline.Value
import Idealize.ShloMosaic.Lib.ValueLayout
import Idealize.ShloMosaic.PureOps.Ideal.Laws

noncomputable section

namespace Cert.LibColumns

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Reducing axis 1 of `[a, b]`: the kept coordinate `r` with the reduced coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing axis 0 of `[a, b]`: the kept coordinate `c` with the reduced coordinate `k` put back is `(k, c)`. -/
theorem lift_axis0 {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A float sum along axis 1 of `[a, b]`, at the ideal values: at `r` it is the sum over the row's `b` entries. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) : multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-- A float sum along axis 0 of `[a, b]`, at the ideal values: at `c` it is the sum over the column's `a` entries. -/
theorem colSum_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (c : Fin b) : multiReduction .add [0] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_axis0 h c k)

/-- A float maximum along axis 1 of `[a, b]`, at the ideal values: at `r` it is the fold of `max`, from the accumulator's
    value, over the row's `b` entries. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (r : Fin a) : multiReduction .maximumf [1] ⟨1, ![a]⟩ src acc h hφ hacc (ix1 r)
      = (Finset.univ : Finset (Fin b)).fold max (Ideal.ofBits φ acc) fun k => src (ix2 r k) := by
  refine (Ideal.multiReduction_maximumf_single src acc h hφ hacc (ix1 r)).trans ?_
  have hf : (src ∘ h.lift (ix1 r)) = fun k : Fin b => src (ix2 r k) := funext fun k => congrArg src (lift_axis1 h r k)
  exact congrArg (fun f => Finset.fold max (Ideal.ofBits φ acc) f (Finset.univ : Finset (Fin b))) hf

end Cert.LibColumns

end
-- ==== Proof.ValDeg.lean ====
/-
  Region 0 at the ideal values: the array the degree kernel leaves.  Its sixteen 512-row blocks tile the 8192 x 1
  column; block t holds, row by row, the degree scaling of the row sums of rows [512 t, 512 t + 512) of the adjacency
  matrix; so the whole column is the degree scaling of every row's sum.
-/
import proofs.«115208_j43868795961667_1_alg».proof.Proof.KI.Deg
import proofs.«115208_j43868795961667_1_alg».proof.Proof.Spec
import proofs.«115208_j43868795961667_1_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-block rectangle. -/
theorem zero_offsets : (![0, 0] : Fin 2 → Nat) = fun _ => 0 := funext fun a => by fin_cases a <;> rfl

/-- The row sum of a 512 x 8192 block, kept as a 512 x 1 column: at (p, q) it is the sum of row p's 8192 entries. -/
theorem rowsum_column (x0 : Vec Ideal S512x8192 .f32) (p : Fin 512) (q : Fin 1) :
    shapeCast S512x1 (multiReduction (F := Ideal) .add [1] S512 x0 0x00000000#32 reduces_S512x8192_S512 (.inl rfl) rfl)
        shapeCasts_S512_S512x1 (ix2 p q)
      = ∑ k : Fin 8192, x0 (ix2 p k) :=
  (Cert.LibColumns.shapeCast_a_a1_apply _ shapeCasts_S512_S512x1 p q).trans
    (Cert.LibColumns.rowSum_apply x0 _ reduces_S512x8192_S512 (.inl rfl) rfl p)

/-- The degree payload of a block at (p, q): the degree scaling of row p's sum. -/
theorem pay_apply (x0 : Vec Ideal S512x8192 .f32) (p : Fin 512) (q : Fin 1) :
    k0_pay1 (F := Ideal) x0 (ix2 p q) = Cert.Spec.dOf (∑ k : Fin 8192, x0 (ix2 p k)) := by
  refine Eq.trans ?_ (congrArg Cert.Spec.dOf (rowsum_column x0 p q))
  rfl

/-- The same at any index of the 512 x 1 block, by its row coordinate. -/
theorem pay_at (x0 : Vec Ideal S512x8192 .f32) (y : S512x1.Idx) :
    k0_pay1 (F := Ideal) x0 y = Cert.Spec.dOf (∑ k : Fin 8192, x0 (ix2 (⟨(y 0).val, idx2_lt0 y⟩ : Fin 512) k)) := by
  have hy : y = ix2 (⟨(y 0).val, idx2_lt0 y⟩ : Fin 512) (⟨(y 1).val, idx2_lt1 y⟩ : Fin 1) := by
    funext a; match a with | ⟨0, _⟩ => rfl | ⟨1, _⟩ => rfl
  exact (congrArg (k0_pay1 (F := Ideal) x0) hy).trans (pay_apply x0 _ _)

/-- Point t's input block is block row t of the matrix, and its output block is block row t of the column. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block of point t at (p, k) is the adjacency matrix at row 512 t + p, column k. -/
theorem iblk_apply (c : Dev nD) (t : Fin cfg0.N) (p : Fin 512) (k : Fin 8192) (r : Fin 8192) (hr : r.val = 512 * t.val + p.val) :
    (iblk0 V c 0 t : Vec Ideal S512x8192 .f32) (ix2 p k) = (V c main_arg1 : S8192x8192.Idx → EReal) (ix2 r k) := by
  obtain ⟨e0, e1, -, -⟩ := idx_facts t
  unfold iblk0
  rw [View.read_apply]
  show V c main_arg1 _ = V c main_arg1 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 8192 + 1 * k.val = k.val; rw [e1]; omega

/-- What point t writes back is block t of the degree column of the adjacency matrix as the region finds it. -/
theorem flushed_eq (c : Dev nD) (t : Fin cfg0.N) :
    (dat0 (F := Ideal) V c).flushed 1 t = ((cfg0.win 1).blk t).view.read (Elt Ideal) (Cert.Spec.degK (V c main_arg1)) := by
  show (cfg0.win 1).cut (grid0.coords t) ((dat0 V c).after 1 t) = _
  rw [after0_1]
  unfold out0_1
  rw [View.canon_unit_zero zero_offsets]
  simp only [View.ld_unit_zero (S := S512x8192) zero_offsets]
  obtain ⟨-, -, e2, e3⟩ := idx_facts t
  funext y
  show k0_pay1 (F := Ideal) (iblk0 V c 0 t) y = Cert.Spec.degK (V c main_arg1) (((cfg0.win 1).blk t).view.emb y)
  refine (pay_at (iblk0 V c 0 t) y).trans ?_
  show Cert.Spec.dOf _ = Cert.Spec.dOf _
  refine congrArg Cert.Spec.dOf (Finset.sum_congr rfl fun k _ => ?_)
  refine iblk_apply V c t _ k _ ?_
  show win0_1.index t (0 : Fin 2) * 512 + 1 * (y 0).val = 512 * t.val + (y 0).val
  rw [e2]; omega

/-- An index of the column is in point t's block iff each coordinate is in the block's range on its axis. -/
theorem mem_blk (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0).slice (win0_1.rect t)).set ↔ _
  rw [View.set_slice_whole, Rect.mem_set_unit]
  exact Iff.rfl

/-- Row r of the column lies in the block of point r / 512: the sixteen blocks tile the column. -/
theorem covered (i : S8192x1.Idx) : ∃ t : Fin cfg0.N, (cfg0.win 1).flush t = true ∧ i ∈ ((cfg0.win 1).blk t).view.set := by
  have h0 : (i 0).val < 8192 := idx2_lt0 i
  have h1 : (i 1).val < 1 := idx2_lt1 i
  have hN : cfg0.N = 16 := N_0
  let t : Fin cfg0.N := ⟨(i 0).val / 512, by rw [hN]; omega⟩
  have ht : t.val = (i 0).val / 512 := rfl
  obtain ⟨-, -, e2, e3⟩ := idx_facts t
  refine ⟨t, flush0_1 t, ?_⟩
  rw [mem_blk]
  intro a
  match a with
  | ⟨0, _⟩ => show win0_1.index t (0 : Fin 2) * 512 ≤ (i 0).val ∧ (i 0).val < win0_1.index t (0 : Fin 2) * 512 + 512; rw [e2, ht]; omega
  | ⟨1, _⟩ => show win0_1.index t (1 : Fin 2) * 1 ≤ (i 1).val ∧ (i 1).val < win0_1.index t (1 : Fin 2) * 1 + 1; rw [e3]; omega

/-- The result column after region 0, for any contents V of the buffers at its entry. -/
theorem deg_final (c : Dev nD) : (dat0 (F := Ideal) V c).arrAt 1 cfg0.N = Cert.Spec.degK (V c main_arg1) :=
  (dat0 (F := Ideal) V c).arrAt_eq_of_cover 1 (Cert.Spec.degK (V c main_arg1)) (fun t _ => flushed_eq V c t) covered

end Cert.KernelIdeal.Val

end
-- ==== Proof.ValGcn.lean ====
/-
  Region 1 at the ideal values: the array the graph-convolution kernel leaves.  The output block of row block i is
  written back at the last of the four reduction steps; by then the accumulator holds the four partial products of
  row block i added in order onto the zero fill; the block is max (acc * d + b, 0); the four row blocks tile the
  8192 x 128 result.
-/
import proofs.«115208_j43868795961667_1_alg».proof.Proof.KI.GcnData
import proofs.«115208_j43868795961667_1_alg».proof.Proof.Spec
import proofs.«115208_j43868795961667_1_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

namespace Gcn

/-! ## The three payloads of the body, read at one entry -/

/-- The product's operand indices at output entry (r, f) and contraction position q: the left operand is read at
    (r, q), the right one at (q, f).  One statement per axis. -/
theorem lhs_gcn_0 (i : S2048x128.Idx) (q : dot_S2048x2048_S2048x128_S2048x128_1_0_0_1_n_n.contr.Idx) :
    (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
theorem lhs_gcn_1 (i : S2048x128.Idx) (q : dot_S2048x2048_S2048x128_S2048x128_1_0_0_1_n_n.contr.Idx) :
    (dot_S2048x2048_S2048x128_S2048x128_1_0_0_1_n_n.lhsIdx i q 1).val = (q ⟨0, by decide⟩).val :=
  dot_S2048x2048_S2048x128_S2048x128_1_0_0_1_n_n.lhsIdx_val_of_single rfl i q
theorem rhs_gcn_0 (i : S2048x128.Idx) (q : dot_S2048x2048_S2048x128_S2048x128_1_0_0_1_n_n.contr.Idx) :
    (dot_S2048x2048_S2048x128_S2048x128_1_0_0_1_n_n.rhsIdx i q 0).val = (q ⟨0, by decide⟩).val :=
  dot_S2048x2048_S2048x128_S2048x128_1_0_0_1_n_n.rhsIdx_val_of_single rfl i q
theorem rhs_gcn_1 (i : S2048x128.Idx) (q : dot_S2048x2048_S2048x128_S2048x128_1_0_0_1_n_n.contr.Idx) :
    (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- A 2048 x 2048 block times a 2048 x 128 block into the zero fill, at entry (r, f): the sum over the 2048 inner
    positions of the products. -/
theorem blockProduct_apply (a : FVec Ideal S2048x2048 .bf16) (x : FVec Ideal S2048x128 .bf16) (r : Fin 2048) (f : Fin 128) :
    matmul dot_S2048x2048_S2048x128_S2048x128_1_0_0_1_n_n none a x (constant S2048x128 .f32 0x00000000#32) (ix2 r f)
      = ∑ j : Fin 2048, a (ix2 r j) * x (ix2 j f) := by
  refine (Ideal.matmul_constant_zero_apply dot_S2048x2048_S2048x128_S2048x128_1_0_0_1_n_n none a x (ix2 r f)).trans ?_
  rw [← Equiv.sum_comp (ValueIdx.contrEquiv1 dot_S2048x2048_S2048x128_S2048x128_1_0_0_1_n_n 2048 rfl rfl).symm]
  refine Finset.sum_congr rfl fun k _ => ?_
  have hk := ValueIdx.contrEquiv1_symm_val dot_S2048x2048_S2048x128_S2048x128_1_0_0_1_n_n 2048 rfl rfl k
  have el : dot_S2048x2048_S2048x128_S2048x128_1_0_0_1_n_n.lhsIdx (ix2 r f) ((ValueIdx.contrEquiv1 dot_S2048x2048_S2048x128_S2048x128_1_0_0_1_n_n 2048 rfl rfl).symm k) = ix2 r k := funext fun ax => Fin.ext (by
    match ax with
    | ⟨0, _⟩ => exact lhs_gcn_0 _ _
    | ⟨1, _⟩ => exact (lhs_gcn_1 _ _).trans hk)
  have er : dot_S2048x2048_S2048x128_S2048x128_1_0_0_1_n_n.rhsIdx (ix2 r f) ((ValueIdx.contrEquiv1 dot_S2048x2048_S2048x128_S2048x128_1_0_0_1_n_n 2048 rfl rfl).symm k) = ix2 k f := funext fun ax => Fin.ext (by
    match ax with
    | ⟨0, _⟩ => exact (rhs_gcn_0 _ _).trans hk
    | ⟨1, _⟩ => exact rhs_gcn_1 _ _)
  rw [el, er]

/-- The accumulator's fill at the first reduction step: the zero word everywhere. -/
theorem zeroFill_apply (r : Fin 2048) (f : Fin 128) : k1_pay1 (F := Ideal) (ix2 r f) = Cert.Spec.zeroW := by
  unfold k1_pay1
  simp only [shapeCast_self]
  rfl

/-- One reduction step at entry (r, f): what the accumulator held plus the block product's entry. -/
theorem step_apply (a : Vec Ideal S2048x2048 .f32) (x : Vec Ideal S2048x128 .f32) (s : Vec Ideal S2048x128 .f32)
    (r : Fin 2048) (f : Fin 128) :
    k1_pay2 a x s (ix2 r f) = s (ix2 r f) + ∑ j : Fin 2048, a (ix2 r j) * x (ix2 j f) := by
  unfold k1_pay2
  simp only [shapeCast_self]
  refine (addf_apply _ _ _).trans ?_
  refine congrArg (s (ix2 r f) + ·) ?_
  refine (blockProduct_apply _ _ r f).trans ?_
  rfl

/-- The epilogue at entry (r, f): the accumulator's entry scaled by the row's entry of the column block, plus the
    bias entry of column f, clamped below at zero. -/
theorem epilogue_apply (s : Vec Ideal S2048x128 .f32) (d : Vec Ideal S2048x1 .f32) (b : Vec Ideal S128 .f32)
    (r : Fin 2048) (f : Fin 128) :
    k1_pay3 s d b (ix2 r f) = max (s (ix2 r f) * d (ix2 r (0 : Fin 1)) + b (ix1 f)) Cert.Spec.zeroW := by
  unfold k1_pay3
  simp only [shapeCast_self]
  refine (maximumf_apply _ _ _).trans ?_
  refine congrArg₂ max ?_ rfl
  refine (addf_apply _ _ _).trans ?_
  refine congrArg₂ (· + ·) ?_ ?_
  · refine (mulf_apply _ _ _).trans ?_
    exact congrArg (s (ix2 r f) * ·) (Cert.LibColumns.broadcastTo_a1_ab_apply d broadcasts_S2048x1_S2048x128 r f)
  · refine (broadcastTo_1b_ab_apply _ broadcasts_S1x128_S2048x128 r f).trans ?_
    exact shapeCast_a_1a_apply b shapeCasts_S128_S1x128 (0 : Fin 1) f

/-! ## The blocks of a point, read off the arrays -/

/-- The block indices of the five windows at point t = 4 i + k (rows i outer, reduction step k inner), decided over
    the sixteen points: the adjacency block is (i, k), the feature block (k, 0), the scaling block (i, 0), the bias
    block (0), the output block (i, 0). -/
theorem blockIndex_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 1) = 0
    ∧ win1_4.index t (0 : Fin 2) = t.val / 4 ∧ win1_4.index t (1 : Fin 2) = 0 :=
  (by decide +kernel : ∀ t : Fin grid1.N, _)

variable (V : (c : Dev nD) → (b : Ref sig .tc) → Buf (Elt Ideal) ((c : Thread nD τ).loc b))

/-- The four arrays region 1 reads, and the four blocks of them a point is handed, at their literal types. -/
abbrev aArr (c : Dev nD) : Vec Ideal S8192x8192 .f32 := V c main_arg1
abbrev xArr (c : Dev nD) : Vec Ideal S8192x128 .f32 := V c main_v3
abbrev dArr (c : Dev nD) : Vec Ideal S8192x1 .f32 := V c main_v0
abbrev bArr (c : Dev nD) : Vec Ideal S128 .f32 := V c main_arg4
abbrev aBlk (c : Dev nD) (t : Fin cfg1.N) : Vec Ideal S2048x2048 .f32 := iblk1 V c 0 t
abbrev xBlk (c : Dev nD) (t : Fin cfg1.N) : Vec Ideal S2048x128 .f32 := iblk1 V c 1 t
abbrev dBlk (c : Dev nD) (t : Fin cfg1.N) : Vec Ideal S2048x1 .f32 := iblk1 V c 2 t
abbrev bBlk (c : Dev nD) (t : Fin cfg1.N) : Vec Ideal S128 .f32 := iblk1 V c 3 t

/-- Entry (r, j) of the adjacency block at point t = 4 i + k is entry (2048 i + r, 2048 k + j) of the matrix. -/
theorem aBlk_apply (c : Dev nD) (t : Fin cfg1.N) (r j : Fin 2048) (R C : Fin 8192)
    (hR : R.val = 2048 * (t.val / 4) + r.val) (hC : C.val = 2048 * (t.val % 4) + j.val) :
    aBlk V c t (ix2 r j) = aArr V c (ix2 R C) := by
  obtain ⟨e0, e1, -⟩ := blockIndex_facts t
  show V c main_arg1 (((cfg1.win 0).blk t).view.emb (ix2 r j)) = V c main_arg1 (ix2 R C)
  refine congrArg (V c main_arg1) (funext fun ax => Fin.ext ?_)
  match ax with
  | ⟨0, _⟩ => show win1_0.index t (0 : Fin 2) * 2048 + 1 * r.val = R.val; omega
  | ⟨1, _⟩ => show win1_0.index t (1 : Fin 2) * 2048 + 1 * j.val = C.val; omega

/-- Entry (j, f) of the feature block at point t = 4 i + k is entry (2048 k + j, f) of the scaled features. -/
theorem xBlk_apply (c : Dev nD) (t : Fin cfg1.N) (j : Fin 2048) (f : Fin 128) (C : Fin 8192)
    (hC : C.val = 2048 * (t.val % 4) + j.val) :
    xBlk V c t (ix2 j f) = xArr V c (ix2 C f) := by
  obtain ⟨-, -, e2, e3, -⟩ := blockIndex_facts t
  show V c main_v3 (((cfg1.win 1).blk t).view.emb (ix2 j f)) = V c main_v3 (ix2 C f)
  refine congrArg (V c main_v3) (funext fun ax => Fin.ext ?_)
  match ax with
  | ⟨0, _⟩ => show win1_1.index t (0 : Fin 2) * 2048 + 1 * j.val = C.val; omega
  | ⟨1, _⟩ => show win1_1.index t (1 : Fin 2) * 128 + 1 * f.val = f.val; omega

/-- Entry (r, 0) of the scaling block at point t = 4 i + k is entry (2048 i + r, 0) of the scaling column. -/
theorem dBlk_apply (c : Dev nD) (t : Fin cfg1.N) (r : Fin 2048) (u : Fin 1) (R : Fin 8192)
    (hR : R.val = 2048 * (t.val / 4) + r.val) :
    dBlk V c t (ix2 r u) = dArr V c (ix2 R u) := by
  obtain ⟨-, -, -, -, e4, e5, -⟩ := blockIndex_facts t
  show V c main_v0 (((cfg1.win 2).blk t).view.emb (ix2 r u)) = V c main_v0 (ix2 R u)
  refine congrArg (V c main_v0) (funext fun ax => Fin.ext ?_)
  match ax with
  | ⟨0, _⟩ => show win1_2.index t (0 : Fin 2) * 2048 + 1 * r.val = R.val; omega
  | ⟨1, _⟩ => show win1_2.index t (1 : Fin 2) * 1 + 1 * u.val = u.val; omega

/-- The bias block is the whole bias at every point. -/
theorem bBlk_apply (c : Dev nD) (t : Fin cfg1.N) (f : Fin 128) : bBlk V c t (ix1 f) = bArr V c (ix1 f) := by
  obtain ⟨-, -, -, -, -, -, e6, -⟩ := blockIndex_facts t
  show V c main_arg4 (((cfg1.win 3).blk t).view.emb (ix1 f)) = V c main_arg4 (ix1 f)
  refine congrArg (V c main_arg4) (funext fun ax => Fin.ext ?_)
  match ax with
  | ⟨0, _⟩ => show win1_3.index t (0 : Fin 1) * 128 + 1 * f.val = f.val; omega

/-! ## The accumulator after each point of a row block -/

/-- The zero fill plus the first k + 1 block sums of g, added in order. -/
def partSum (g : Fin 8192 → EReal) : (k : ℕ) → k < 4 → EReal
  | 0, _ => Cert.Spec.zeroW + Cert.Spec.blk g 0
  | k + 1, h => partSum g k (Nat.lt_of_succ_lt h) + Cert.Spec.blk g ⟨k + 1, h⟩

/-- After the fourth step it is the accumulator of the specification. -/
theorem partSum_three (g : Fin 8192 → EReal) (h : 3 < 4) : partSum g 3 h = Cert.Spec.acc4 g := rfl

/-- One reduction step over blocks that are the (row block, k) and (k) blocks of two arrays A and X: the entry
    (r, f) gains the k-th block sum of the products A (R, j') * X (j', f), R the row of A that row r of the block is. -/
theorem step_blk (a : Vec Ideal S2048x2048 .f32) (x : Vec Ideal S2048x128 .f32) (s : Vec Ideal S2048x128 .f32)
    (A : Vec Ideal S8192x8192 .f32) (X : Vec Ideal S8192x128 .f32) (r : Fin 2048) (f : Fin 128) (R : Fin 8192) (k : Fin 4)
    (ha : ∀ j : Fin 2048, a (ix2 r j) = A (ix2 R (⟨2048 * k.val + j.val, by omega⟩ : Fin 8192)))
    (hx : ∀ j : Fin 2048, x (ix2 j f) = X (ix2 (⟨2048 * k.val + j.val, by omega⟩ : Fin 8192) f)) :
    k1_pay2 a x s (ix2 r f) = s (ix2 r f) + Cert.Spec.blk (fun j' => A (ix2 R j') * X (ix2 j' f)) k := by
  refine (step_apply a x s r f).trans ?_
  refine congrArg (s (ix2 r f) + ·) ?_
  unfold Cert.Spec.blk
  exact Finset.sum_congr rfl fun j _ => by rw [ha j, hx j]

/-- The accumulator depends on the position only. -/
theorem acc1_congr (c : Dev nD) {n n' : ℕ} (h : n = n') (hn : n < cfg1.N) (hn' : n' < cfg1.N) :
    acc1 V c n hn = acc1 V c n' hn' := by
  subst h; rfl

/-- THE INVARIANT of row block i: after reduction step k the accumulator's entry (r, f) is the zero fill plus the
    block sums 0 … k, in order, of the products of row 2048 i + r of the adjacency matrix with column f of the
    scaled features. -/
theorem acc_apply (c : Dev nD) (i : ℕ) (r : Fin 2048) (f : Fin 128) (R : Fin 8192) (hR : R.val = 2048 * i + r.val) :
    ∀ (k : ℕ) (hk : k < 4) (hn : 4 * i + k < cfg1.N),
      acc1 V c (4 * i + k) hn (ix2 r f) = partSum (fun j' => aArr V c (ix2 R j') * xArr V c (ix2 j' f)) k hk
  | 0, hk, hn => by
    refine (congrFun (acc1_reset V c ⟨4 * i + 0, hn⟩ (by show (4 * i + 0) % 4 = 0; omega)) (ix2 r f)).trans ?_
    refine (step_blk (aBlk V c ⟨4 * i + 0, hn⟩) (xBlk V c ⟨4 * i + 0, hn⟩) (k1_pay1 (F := Ideal)) (aArr V c) (xArr V c) r f R ⟨0, hk⟩ ?_ ?_).trans ?_
    · intro j
      exact aBlk_apply V c ⟨4 * i + 0, hn⟩ r j R _ (by show R.val = 2048 * ((4 * i + 0) / 4) + r.val; omega)
        (by show 2048 * 0 + j.val = 2048 * ((4 * i + 0) % 4) + j.val; omega)
    · intro j
      exact xBlk_apply V c ⟨4 * i + 0, hn⟩ j f _ (by show 2048 * 0 + j.val = 2048 * ((4 * i + 0) % 4) + j.val; omega)
    · exact congrArg (· + Cert.Spec.blk (fun j' => aArr V c (ix2 R j') * xArr V c (ix2 j' f)) ⟨0, hk⟩) (zeroFill_apply r f)
  | k + 1, hk, hn => by
    refine (congrFun (acc1_step V c ⟨4 * i + (k + 1), hn⟩ (by show ¬(4 * i + (k + 1)) % 4 = 0; omega)) (ix2 r f)).trans ?_
    refine (step_blk (aBlk V c ⟨4 * i + (k + 1), hn⟩) (xBlk V c ⟨4 * i + (k + 1), hn⟩) _ (aArr V c) (xArr V c) r f R ⟨k + 1, hk⟩ ?_ ?_).trans ?_
    · intro j
      exact aBlk_apply V c ⟨4 * i + (k + 1), hn⟩ r j R _ (by show R.val = 2048 * ((4 * i + (k + 1)) / 4) + r.val; omega)
        (by show 2048 * (k + 1) + j.val = 2048 * ((4 * i + (k + 1)) % 4) + j.val; omega)
    · intro j
      exact xBlk_apply V c ⟨4 * i + (k + 1), hn⟩ j f _ (by show 2048 * (k + 1) + j.val = 2048 * ((4 * i + (k + 1)) % 4) + j.val; omega)
    · refine congrArg (· + Cert.Spec.blk (fun j' => aArr V c (ix2 R j') * xArr V c (ix2 j' f)) ⟨k + 1, hk⟩) ?_
      refine (congrFun (acc1_congr V c (show 4 * i + (k + 1) - 1 = 4 * i + k by omega) _ (by omega)) (ix2 r f)).trans ?_
      exact acc_apply c i r f R hR k (Nat.lt_of_succ_lt hk) (by omega)

/-! ## What a row block's last point writes back, and the whole array -/

/-- The specification's entry (R, f), with the coordinates named. -/
theorem hK_apply (A : Cert.Spec.A2 8192 8192) (X : Cert.Spec.A2 8192 128) (D : Cert.Spec.A2 8192 1) (b : Cert.Spec.A1 128)
    (R : Fin 8192) (f : Fin 128) :
    Cert.Spec.hK A X D b (ix2 R f)
      = max (Cert.Spec.acc4 (fun j' => A (ix2 R j') * X (ix2 j' f)) * D (ix2 R (0 : Fin 1)) + b (ix1 f)) Cert.Spec.zeroW := rfl

/-- At the last reduction step of row block i the stored entry (r, f) is the specification's entry (2048 i + r, f). -/
theorem out_apply (c : Dev nD) (t : Fin cfg1.N) (h3 : t.val % 4 = 3) (r : Fin 2048) (f : Fin 128) (R : Fin 8192)
    (hR : R.val = 2048 * (t.val / 4) + r.val) :
    k1_pay3 (acc1 V c t.val t.isLt) (dBlk V c t) (bBlk V c t) (ix2 r f)
      = Cert.Spec.hK (aArr V c) (xArr V c) (dArr V c) (bArr V c) (ix2 R f) := by
  refine (epilogue_apply _ _ _ r f).trans ?_
  refine ((hK_apply (aArr V c) (xArr V c) (dArr V c) (bArr V c) R f).trans ?_).symm
  have hacc : acc1 V c t.val t.isLt (ix2 r f) = Cert.Spec.acc4 (fun j' => aArr V c (ix2 R j') * xArr V c (ix2 j' f)) := by
    have ht : t.val = 4 * (t.val / 4) + 3 := by omega
    refine (congrFun (acc1_congr V c ht t.isLt (by rw [← ht]; exact t.isLt)) (ix2 r f)).trans ?_
    exact (acc_apply V c (t.val / 4) r f R hR 3 (by decide) _).trans (partSum_three _ _)
  rw [hacc, dBlk_apply V c t r (0 : Fin 1) R hR, bBlk_apply V c t f]

/-- WHAT THE LAST POINT OF A ROW BLOCK WRITES BACK is its block of the specification. -/
theorem flushed_eq (c : Dev nD) (t : Fin cfg1.N) (hf : (cfg1.win 4).flush t = true) :
    (dat1 (F := Ideal) V c).flushed 4 t
      = ((cfg1.win 4).blk t).view.read (Elt Ideal) (Cert.Spec.hK (aArr V c) (xArr V c) (dArr V c) (bArr V c)) := by
  have h3 : t.val % 4 = 3 := (flush1_4 t).mp hf
  have hN : cfg1.N = 16 := N_1
  have htl : t.val < 16 := hN ▸ t.isLt
  obtain ⟨-, -, -, -, -, -, -, e7, e8⟩ := blockIndex_facts t
  show (cfg1.win 4).cut (grid1.coords t) ((dat1 (F := Ideal) V c).after 4 t) = _
  rw [after1_4]
  funext y
  have hy0 : (y 0).val < 2048 := (y 0).isLt
  have hy1 : (y 1).val < 128 := (y 1).isLt
  have ex : (cfg1.win 4).xinj (grid1.coords t) y = ix2 (⟨(y 0).val, hy0⟩ : Fin 2048) (⟨(y 1).val, hy1⟩ : Fin 128) :=
    funext fun ax => by
      match ax with
      | ⟨0, _⟩ => rfl
      | ⟨1, _⟩ => rfl
  have ee : ((cfg1.win 4).blk t).view.emb y
      = ix2 (⟨2048 * (t.val / 4) + (y 0).val, by omega⟩ : Fin 8192) (⟨(y 1).val, hy1⟩ : Fin 128) :=
    funext fun ax => Fin.ext (by
      match ax with
      | ⟨0, _⟩ => show win1_4.index t (0 : Fin 2) * 2048 + 1 * (y 0).val = 2048 * (t.val / 4) + (y 0).val; omega
      | ⟨1, _⟩ => show win1_4.index t (1 : Fin 2) * 128 + 1 * (y 1).val = (y 1).val; omega)
  show k1_pay3 (acc1 V c t.val t.isLt) (dBlk V c t) (bBlk V c t) ((cfg1.win 4).xinj (grid1.coords t) y)
    = Cert.Spec.hK (aArr V c) (xArr V c) (dArr V c) (bArr V c) (((cfg1.win 4).blk t).view.emb y)
  rw [ex, ee]
  exact out_apply V c t h3 _ _ _ rfl

/-- Every row of the result lies in the block of its row block, written back at that block's last point. -/
theorem cover (i : S8192x128.Idx) :
    ∃ t : Fin cfg1.N, (cfg1.win 4).flush t = true ∧ i ∈ ((cfg1.win 4).blk t).view.set := by
  have hi0 : (i 0).val < 8192 := (i 0).isLt
  have hi1 : (i 1).val < 128 := (i 1).isLt
  have hN : cfg1.N = 16 := N_1
  obtain ⟨t, ht⟩ : ∃ t : Fin cfg1.N, t.val = 4 * ((i 0).val / 2048) + 3 := ⟨⟨4 * ((i 0).val / 2048) + 3, by omega⟩, rfl⟩
  obtain ⟨-, -, -, -, -, -, -, e7, e8⟩ := blockIndex_facts t
  refine ⟨t, (flush1_4 t).mpr (by omega), ?_⟩
  show i ∈ ((View.whole main_v4).slice (win1_4.rect t)).set
  rw [View.set_slice_whole, Rect.mem_set_unit]
  intro ax
  match ax with
  | ⟨0, _⟩ =>
    show win1_4.index t (0 : Fin 2) * 2048 ≤ (i 0).val ∧ (i 0).val < win1_4.index t (0 : Fin 2) * 2048 + 2048
    omega
  | ⟨1, _⟩ =>
    show win1_4.index t (1 : Fin 2) * 128 ≤ (i 1).val ∧ (i 1).val < win1_4.index t (1 : Fin 2) * 128 + 128
    omega

end Gcn

variable (V : (c : Dev nD) → (b : Ref sig .tc) → Buf (Elt Ideal) ((c : Thread nD τ).loc b))

/-- The hidden features after region 1, for any contents V of the buffers at its entry. -/
theorem gcn_final (c : Dev nD) :
    (dat1 (F := Ideal) V c).arrAt 4 cfg1.N = Cert.Spec.hK (V c main_arg1) (V c main_v3) (V c main_v0) (V c main_arg4) :=
  (dat1 (F := Ideal) V c).arrAt_eq_of_cover 4 (Cert.Spec.hK (Gcn.aArr V c) (Gcn.xArr V c) (Gcn.dArr V c) (Gcn.bArr V c))
    (fun t hf => Gcn.flushed_eq V c t hf) Gcn.cover

end Cert.KernelIdeal.Val

end
-- ==== Proof.ValPool.lean ====
/-
  Region 2 at the ideal values: the array the pooling kernel leaves.  The output block of row block i is written back
  at the last of the four reduction steps; by then the accumulator holds the four partial products of row block i of
  the coarsening matrix with the hidden features, added in order onto the zero fill; the block is
  max (acc @ W_out + b_out, 0); the four row blocks tile the 4096 x 128 result.
-/
import proofs.«115208_j43868795961667_1_alg».proof.Proof.KI.PoolData
import proofs.«115208_j43868795961667_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! The lemmas of this region, kept under one name so that they meet no other region's. -/
namespace Pool

/-! ## The two products of the body, read at an index -/

theorem lhs_acc_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_acc_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_acc_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_acc_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The accumulate step's product into the zero splat, at (r, f): the sum over the 2048 contracted positions. -/
theorem mm_acc_apply {φ₁ φ₂ : FTy} (a : FVec Ideal S1024x2048 φ₁) (x : FVec Ideal S2048x128 φ₂) (r : Fin 1024) (f : Fin 128) :
    FloatOps.matmul dot_S1024x2048_S2048x128_S1024x128_1_0_0_1_n_n none a x (constant (F := Ideal) S1024x128 .f32 0x00000000#32) (ix2 r f)
      = ∑ j : Fin 2048, a (ix2 r j) * x (ix2 j f) := by
  rw [Ideal.matmul_constant_zero_apply, ← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 r f) ((ValueIdx.contrEquiv1 dot_S1024x2048_S2048x128_S1024x128_1_0_0_1_n_n 2048 rfl rfl).symm k) = ix2 r k := funext fun a => Fin.ext (by
    match a with
    | ⟨0, _⟩ => exact lhs_acc_0 _ _
    | ⟨1, _⟩ => exact (lhs_acc_1 _ _).trans hk)
  have er : dot_S1024x2048_S2048x128_S1024x128_1_0_0_1_n_n.rhsIdx (ix2 r f) ((ValueIdx.contrEquiv1 dot_S1024x2048_S2048x128_S1024x128_1_0_0_1_n_n 2048 rfl rfl).symm k) = ix2 k f := funext fun a => Fin.ext (by
    match a with
    | ⟨0, _⟩ => exact (rhs_acc_0 _ _).trans hk
    | ⟨1, _⟩ => exact rhs_acc_1 _ _)
  rw [el, er]

theorem lhs_out_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_out_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_out_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_out_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The epilogue's product into the zero splat, at (r, f): the sum over the 128 contracted positions. -/
theorem mm_out_apply {φ₁ φ₂ : FTy} (s : FVec Ideal S1024x128 φ₁) (w : FVec Ideal S128x128 φ₂) (r : Fin 1024) (f : Fin 128) :
    FloatOps.matmul dot_S1024x128_S128x128_S1024x128_1_0_0_1_n_n none s w (constant (F := Ideal) S1024x128 .f32 0x00000000#32) (ix2 r f)
      = ∑ k : Fin 128, s (ix2 r k) * w (ix2 k f) := by
  rw [Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 r f) ((ValueIdx.contrEquiv1 dot_S1024x128_S128x128_S1024x128_1_0_0_1_n_n 128 rfl rfl).symm k) = ix2 r k := funext fun a => Fin.ext (by
    match a with
    | ⟨0, _⟩ => exact lhs_out_0 _ _
    | ⟨1, _⟩ => exact (lhs_out_1 _ _).trans hk)
  have er : dot_S1024x128_S128x128_S1024x128_1_0_0_1_n_n.rhsIdx (ix2 r f) ((ValueIdx.contrEquiv1 dot_S1024x128_S128x128_S1024x128_1_0_0_1_n_n 128 rfl rfl).symm k) = ix2 k f := funext fun a => Fin.ext (by
    match a with
    | ⟨0, _⟩ => exact (rhs_out_0 _ _).trans hk
    | ⟨1, _⟩ => exact rhs_out_1 _ _)
  rw [el, er]

/-! ## The three payloads at an index -/

/-- The reset value is the zero word everywhere. -/
theorem pay1_apply (r : Fin 1024) (f : Fin 128) : k2_pay1 (F := Ideal) (ix2 r f) = Cert.Spec.zeroW := by
  unfold k2_pay1
  exact congrFun (shapeCast_self _ _) (ix2 r f)

/-- The accumulate step: what was there plus the row of the left block times the column of the right block. -/
theorem pay2_apply (a : Vec Ideal S1024x2048 .f32) (x : Vec Ideal S2048x128 .f32) (s : Vec Ideal S1024x128 .f32) (r : Fin 1024) (f : Fin 128) :
    k2_pay2 a x s (ix2 r f) = s (ix2 r f) + ∑ j : Fin 2048, a (ix2 r j) * x (ix2 j f) := by
  unfold k2_pay2
  refine (congrFun (shapeCast_self _ _) (ix2 r f)).trans ?_
  refine congrArg (s (ix2 r f) + ·) ?_
  refine (mm_acc_apply _ _ r f).trans ?_
  refine Finset.sum_congr rfl fun j _ => ?_
  exact congrArg (a (ix2 r j) * ·) (congrFun (shapeCast_self x _) (ix2 j f))

/-- The epilogue: the accumulator's row times the weight's column, plus the bias, clamped at zero. -/
theorem pay3_apply (s : Vec Ideal S1024x128 .f32) (w : Vec Ideal S128x128 .f32) (b : Vec Ideal S128 .f32) (r : Fin 1024) (f : Fin 128) :
    k2_pay3 s w b (ix2 r f) = max ((∑ k : Fin 128, s (ix2 r k) * w (ix2 k f)) + b (ix1 f)) Cert.Spec.zeroW := by
  unfold k2_pay3
  refine congrArg (max · Cert.Spec.zeroW) ?_
  refine congrArg₂ (· + ·) (mm_out_apply _ _ r f) ?_
  refine (broadcastTo_1b_ab_apply _ _ r f).trans ?_
  exact shapeCast_a_1a_apply b _ (0 : Fin 1) f

/-! ## The blocks of a point, read off the arrays -/

/-- The index maps over the grid: point t = 4 i + k has row block i = t / 4 and reduction step k = t % 4. -/
theorem idx_facts : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val / 4 ∧ win2_4.index t (1 : Fin 2) = 0 :=
  (by decide +kernel : ∀ t : Fin grid2.N, _)

/-- The arrays region 2 reads, and its blocks at a point, at their literal types. -/
abbrev Carr (c : Dev nD) : Vec Ideal S4096x8192 .f32 := V c main_arg2
abbrev Harr (c : Dev nD) : Vec Ideal S8192x128 .f32 := V c main_v4
abbrev Warr (c : Dev nD) : Vec Ideal S128x128 .f32 := V c main_arg5
abbrev Barr (c : Dev nD) : Vec Ideal S128 .f32 := V c main_arg6
abbrev cblk (c : Dev nD) (t : Fin cfg2.N) : Vec Ideal S1024x2048 .f32 := iblk2 V c 0 t
abbrev hblk (c : Dev nD) (t : Fin cfg2.N) : Vec Ideal S2048x128 .f32 := iblk2 V c 1 t
abbrev wblk (c : Dev nD) (t : Fin cfg2.N) : Vec Ideal S128x128 .f32 := iblk2 V c 2 t
abbrev bblk (c : Dev nD) (t : Fin cfg2.N) : Vec Ideal S128 .f32 := iblk2 V c 3 t

/-- The coarsening matrix's block at point t holds rows 1024 (t / 4) + r and columns 2048 (t % 4) + j. -/
theorem cblk_apply (c : Dev nD) (t : Fin cfg2.N) (r : Fin 1024) (j : Fin 2048) (R : Fin 4096) (J : Fin 8192)
    (hR : R.val = 1024 * (t.val / 4) + r.val) (hJ : J.val = 2048 * (t.val % 4) + j.val) :
    cblk V c t (ix2 r j) = Carr V c (ix2 R J) := by
  obtain ⟨e0, e1, -⟩ := idx_facts t
  show (iblk2 V c 0 t) (ix2 r j) = V c main_arg2 (ix2 R J)
  unfold iblk2
  rw [View.read_apply]
  show V c main_arg2 _ = V c main_arg2 _
  congr 1
  funext a
  apply Fin.ext
  match a with
  | ⟨0, _⟩ => show win2_0.index t (0 : Fin 2) * 1024 + 1 * r.val = R.val; rw [e0, hR]; omega
  | ⟨1, _⟩ => show win2_0.index t (1 : Fin 2) * 2048 + 1 * j.val = J.val; rw [e1, hJ]; omega

/-- The hidden features' block at point t holds rows 2048 (t % 4) + j, every column. -/
theorem hblk_apply (c : Dev nD) (t : Fin cfg2.N) (j : Fin 2048) (f : Fin 128) (J : Fin 8192)
    (hJ : J.val = 2048 * (t.val % 4) + j.val) :
    hblk V c t (ix2 j f) = Harr V c (ix2 J f) := by
  obtain ⟨-, -, e0, e1, -⟩ := idx_facts t
  show (iblk2 V c 1 t) (ix2 j f) = V c main_v4 (ix2 J f)
  unfold iblk2
  rw [View.read_apply]
  show V c main_v4 _ = V c main_v4 _
  congr 1
  funext a
  apply Fin.ext
  match a with
  | ⟨0, _⟩ => show win2_1.index t (0 : Fin 2) * 2048 + 1 * j.val = J.val; rw [e0, hJ]; omega
  | ⟨1, _⟩ => show win2_1.index t (1 : Fin 2) * 128 + 1 * f.val = f.val; rw [e1]; omega

/-- The weight's block is the weight. -/
theorem wblk_apply (c : Dev nD) (t : Fin cfg2.N) (k : Fin 128) (f : Fin 128) :
    wblk V c t (ix2 k f) = Warr V c (ix2 k f) := by
  obtain ⟨-, -, -, -, e0, e1, -⟩ := idx_facts t
  show (iblk2 V c 2 t) (ix2 k f) = V c main_arg5 (ix2 k f)
  unfold iblk2
  rw [View.read_apply]
  show V c main_arg5 _ = V c main_arg5 _
  congr 1
  funext a
  apply Fin.ext
  match a with
  | ⟨0, _⟩ => show win2_2.index t (0 : Fin 2) * 128 + 1 * k.val = k.val; rw [e0]; omega
  | ⟨1, _⟩ => show win2_2.index t (1 : Fin 2) * 128 + 1 * f.val = f.val; rw [e1]; omega

/-- The bias's block is the bias. -/
theorem bblk_apply (c : Dev nD) (t : Fin cfg2.N) (f : Fin 128) :
    bblk V c t (ix1 f) = Barr V c (ix1 f) := by
  obtain ⟨-, -, -, -, -, -, e0, -⟩ := idx_facts t
  show (iblk2 V c 3 t) (ix1 f) = V c main_arg6 (ix1 f)
  unfold iblk2
  rw [View.read_apply]
  show V c main_arg6 _ = V c main_arg6 _
  congr 1
  funext a
  apply Fin.ext
  match a with
  | ⟨0, _⟩ => show win2_3.index t (0 : Fin 1) * 128 + 1 * f.val = f.val; rw [e0]; omega

/-! ## The accumulator over the four reduction steps of a row block -/

/-- The product of the two blocks of point t, at (r, f), is the t % 4-th block sum of the row's products. -/
theorem blk_eq (c : Dev nD) (t : Fin cfg2.N) (k : Fin 4) (hk : t.val % 4 = k.val) (r : Fin 1024) (f : Fin 128) (R : Fin 4096)
    (hR : R.val = 1024 * (t.val / 4) + r.val) :
    ∑ j : Fin 2048, cblk V c t (ix2 r j) * hblk V c t (ix2 j f)
      = Cert.Spec.blk (fun J => Carr V c (ix2 R J) * Harr V c (ix2 J f)) k := by
  unfold Cert.Spec.blk
  refine Finset.sum_congr rfl fun j _ => ?_
  have hJ : ((⟨2048 * k.val + j.val, by omega⟩ : Fin 8192)).val = 2048 * (t.val % 4) + j.val := by rw [hk]
  exact congrArg₂ (· * ·) (cblk_apply V c t r j R _ hR hJ) (hblk_apply V c t j f _ hJ)

/-- At the first step of a reduction the accumulator is the zero fill plus the first block sum. -/
theorem acc_reset_apply (c : Dev nD) (n : ℕ) (hn : n < cfg2.N) (h0 : n % 4 = 0) (r : Fin 1024) (f : Fin 128) (R : Fin 4096)
    (hR : R.val = 1024 * (n / 4) + r.val) :
    acc2 V c n hn (ix2 r f) = Cert.Spec.zeroW + Cert.Spec.blk (fun J => Carr V c (ix2 R J) * Harr V c (ix2 J f)) 0 := by
  refine (congrFun (acc2_reset V c ⟨n, hn⟩ h0) (ix2 r f)).trans ?_
  refine (pay2_apply (cblk V c ⟨n, hn⟩) (hblk V c ⟨n, hn⟩) (k2_pay1 (F := Ideal)) r f).trans ?_
  exact congrArg₂ (· + ·) (pay1_apply r f) (blk_eq V c ⟨n, hn⟩ 0 h0 r f R hR)

/-- At a later step it is what the step before left plus that step's block sum. -/
theorem acc_step_apply (c : Dev nD) (n : ℕ) (hn : n + 1 < cfg2.N) (k : Fin 4) (hk : (n + 1) % 4 = k.val) (h0 : ¬(n + 1) % 4 = 0)
    (r : Fin 1024) (f : Fin 128) (R : Fin 4096) (hR : R.val = 1024 * ((n + 1) / 4) + r.val) :
    acc2 V c (n + 1) hn (ix2 r f)
      = acc2 V c n (Nat.lt_of_succ_lt hn) (ix2 r f) + Cert.Spec.blk (fun J => Carr V c (ix2 R J) * Harr V c (ix2 J f)) k := by
  have e : acc2 V c (n + 1) hn = k2_pay2 (cblk V c ⟨n + 1, hn⟩) (hblk V c ⟨n + 1, hn⟩) (acc2 V c n (Nat.lt_of_succ_lt hn)) := if_neg h0
  refine (congrFun e (ix2 r f)).trans ?_
  refine (pay2_apply (cblk V c ⟨n + 1, hn⟩) (hblk V c ⟨n + 1, hn⟩) (acc2 V c n (Nat.lt_of_succ_lt hn)) r f).trans ?_
  exact congrArg (acc2 V c n (Nat.lt_of_succ_lt hn) (ix2 r f) + ·) (blk_eq V c ⟨n + 1, hn⟩ k hk r f R hR)

/-- After the last step of row block n / 4 the accumulator holds the four block sums added in order onto the zero fill. -/
theorem acc_last (c : Dev nD) (n : ℕ) (hn : n + 3 < cfg2.N) (h0 : n % 4 = 0) (r : Fin 1024) (f : Fin 128) (R : Fin 4096)
    (hR : R.val = 1024 * (n / 4) + r.val) :
    acc2 V c (n + 3) hn (ix2 r f) = Cert.Spec.acc4 (fun J => Carr V c (ix2 R J) * Harr V c (ix2 J f)) := by
  unfold Cert.Spec.acc4
  have s3 : acc2 V c (n + 3) hn (ix2 r f)
      = acc2 V c (n + 2) (Nat.lt_of_succ_lt hn) (ix2 r f) + Cert.Spec.blk (fun J => Carr V c (ix2 R J) * Harr V c (ix2 J f)) 3 :=
    acc_step_apply V c (n + 2) hn 3 (by show (n + 2 + 1) % 4 = 3; omega) (by omega) r f R (by omega)
  have s2 : acc2 V c (n + 2) (Nat.lt_of_succ_lt hn) (ix2 r f)
      = acc2 V c (n + 1) (Nat.lt_of_succ_lt (Nat.lt_of_succ_lt hn)) (ix2 r f) + Cert.Spec.blk (fun J => Carr V c (ix2 R J) * Harr V c (ix2 J f)) 2 :=
    acc_step_apply V c (n + 1) (Nat.lt_of_succ_lt hn) 2 (by show (n + 1 + 1) % 4 = 2; omega) (by omega) r f R (by omega)
  have s1 : acc2 V c (n + 1) (Nat.lt_of_succ_lt (Nat.lt_of_succ_lt hn)) (ix2 r f)
      = acc2 V c n (Nat.lt_of_succ_lt (Nat.lt_of_succ_lt (Nat.lt_of_succ_lt hn))) (ix2 r f) + Cert.Spec.blk (fun J => Carr V c (ix2 R J) * Harr V c (ix2 J f)) 1 :=
    acc_step_apply V c n (Nat.lt_of_succ_lt (Nat.lt_of_succ_lt hn)) 1 (by show (n + 1) % 4 = 1; omega) (by omega) r f R (by omega)
  have s0 := acc_reset_apply V c n (Nat.lt_of_succ_lt (Nat.lt_of_succ_lt (Nat.lt_of_succ_lt hn))) h0 r f R hR
  rw [s3, s2, s1, s0]

/-! ## What a row block's last point writes back, and the whole array -/

/-- The epilogue's value at (r, f) of the block of point t, a last step, is the specification at the array's index. -/
theorem out_point (c : Dev nD) (t : Fin cfg2.N) (h3 : t.val % 4 = 3) (r : Fin 1024) (f : Fin 128) (I : S4096x128.Idx)
    (hI0 : (I 0).val = 1024 * (t.val / 4) + r.val) (hI1 : (I 1).val = f.val) :
    k2_pay3 (acc2 V c t.val t.isLt) (wblk V c t) (bblk V c t) (ix2 r f)
      = Cert.Spec.oK (Carr V c) (Harr V c) (Warr V c) (Barr V c) I := by
  refine (pay3_apply _ _ _ r f).trans ?_
  unfold Cert.Spec.oK
  have hf : (⟨(I 1).val, idx2_lt1 I⟩ : Fin 128) = f := Fin.ext hI1
  rw [hf]
  refine congrArg (max · Cert.Spec.zeroW) ?_
  refine congrArg₂ (· + ·) (Finset.sum_congr rfl fun k _ => ?_) (bblk_apply V c t f)
  refine congrArg₂ (· * ·) ?_ (wblk_apply V c t k f)
  obtain ⟨tv, ht⟩ := t
  obtain ⟨n, rfl⟩ : ∃ n, tv = n + 3 := ⟨tv - 3, by have : tv % 4 = 3 := h3; omega⟩
  exact acc_last V c n ht (by have : (n + 3) % 4 = 3 := h3; omega) r k ⟨(I 0).val, idx2_lt0 I⟩
    (by have e : (I 0).val = 1024 * ((n + 3) / 4) + r.val := hI0; have : (n + 3) % 4 = 3 := h3; show (I 0).val = 1024 * (n / 4) + r.val; omega)

/-- What a last step writes back is its block of the specification. -/
theorem flushed_eq (c : Dev nD) (t : Fin cfg2.N) (hfl : (cfg2.win 4).flush t = true) :
    (dat2 V c).flushed 4 t
      = ((cfg2.win 4).blk t).view.read (Elt Ideal) (Cert.Spec.oK (V c main_arg2) (V c main_v4) (V c main_arg5) (V c main_arg6)) := by
  have h3 : t.val % 4 = 3 := (flush2_4 t).mp hfl
  obtain ⟨-, -, -, -, -, -, -, e0, e1⟩ := idx_facts t
  show (cfg2.win 4).cut (grid2.coords t) ((dat2 V c).after 4 t) = _
  rw [after2_4]
  funext y
  have hy0 : (y 0).val < 1024 := (y 0).isLt
  have hy1 : (y 1).val < 128 := (y 1).isLt
  have hx : win2_4.xinj (grid2.coords t) y = ix2 (⟨(y 0).val, hy0⟩ : Fin 1024) (⟨(y 1).val, hy1⟩ : Fin 128) :=
    funext fun a => by match a with | ⟨0, _⟩ => rfl | ⟨1, _⟩ => rfl
  refine (congrArg (k2_pay3 (acc2 V c t.val t.isLt) (wblk V c t) (bblk V c t)) hx).trans ?_
  refine out_point V c t h3 _ _ (((cfg2.win 4).blk t).view.emb y) ?_ ?_
  · show win2_4.index t (0 : Fin 2) * 1024 + 1 * (y 0).val = 1024 * (t.val / 4) + (y 0).val
    rw [e0]; omega
  · show win2_4.index t (1 : Fin 2) * 128 + 1 * (y 1).val = (y 1).val
    rw [e1]; omega

/-- An index of the result is in point t's block iff each coordinate is in the block's range on its axis. -/
theorem mem_blk (t : Fin cfg2.N) (i : S4096x128.Idx) :
    i ∈ ((cfg2.win 4).blk t).view.set ↔ ∀ a : Fin 2, win2_4.index t a * S1024x128.size a ≤ (i a).val ∧ (i a).val < win2_4.index t a * S1024x128.size a + S1024x128.size a := by
  show i ∈ ((View.whole main_v5).slice (win2_4.rect t)).set ↔ _
  rw [View.set_slice_whole, Rect.mem_set_unit]
  exact Iff.rfl

/-- Row R of the result lies in the block of row block R / 1024, written back at that block's last step. -/
theorem covered (i : S4096x128.Idx) : ∃ t : Fin cfg2.N, (cfg2.win 4).flush t = true ∧ i ∈ ((cfg2.win 4).blk t).view.set := by
  have hN : cfg2.N = 16 := N_2
  have hi0 : (i 0).val < 4096 := (i 0).isLt
  have hi1 : (i 1).val < 128 := (i 1).isLt
  have htl : 4 * ((i 0).val / 1024) + 3 < cfg2.N := by omega
  obtain ⟨-, -, -, -, -, -, -, e0, e1⟩ := idx_facts ⟨4 * ((i 0).val / 1024) + 3, htl⟩
  refine ⟨⟨4 * ((i 0).val / 1024) + 3, htl⟩, (flush2_4 _).mpr (by show (4 * ((i 0).val / 1024) + 3) % 4 = 3; omega), ?_⟩
  rw [mem_blk]
  intro a
  match a with
  | ⟨0, _⟩ =>
    show win2_4.index ⟨4 * ((i 0).val / 1024) + 3, htl⟩ (0 : Fin 2) * 1024 ≤ (i 0).val ∧ (i 0).val < win2_4.index ⟨4 * ((i 0).val / 1024) + 3, htl⟩ (0 : Fin 2) * 1024 + 1024
    rw [e0]; show (4 * ((i 0).val / 1024) + 3) / 4 * 1024 ≤ (i 0).val ∧ (i 0).val < (4 * ((i 0).val / 1024) + 3) / 4 * 1024 + 1024; omega
  | ⟨1, _⟩ =>
    show win2_4.index ⟨4 * ((i 0).val / 1024) + 3, htl⟩ (1 : Fin 2) * 128 ≤ (i 1).val ∧ (i 1).val < win2_4.index ⟨4 * ((i 0).val / 1024) + 3, htl⟩ (1 : Fin 2) * 128 + 128
    rw [e1]; omega

end Pool

/-- The result after region 2, for any contents V of the buffers at its entry. -/
theorem pool_final (c : Dev nD) :
    (dat2 (F := Ideal) V c).arrAt 4 cfg2.N = Cert.Spec.oK (V c main_arg2) (V c main_v4) (V c main_arg5) (V c main_arg6) :=
  (dat2 V c).arrAt_eq_of_cover 4 (Cert.Spec.oK (V c main_arg2) (V c main_v4) (V c main_arg5) (V c main_arg6))
    (fun t hfl => Pool.flushed_eq V c t hfl) Pool.covered

end Cert.KernelIdeal.Val

end
-- ==== Proof.HostStage.lean ====
/-
  The host stretch between the first two kernel regions, at the ideal values: the product X W_in with its rows
  scaled by the column d — entry (i, f) is d_i times the sum over k of X_ik W_kf.
-/
import proofs.«115208_j43868795961667_1_alg».proof.KernelIdeal
import proofs.«115208_j43868795961667_1_alg».proof.Proof.Gen.KernelIdeal
import proofs.«115208_j43868795961667_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx

/-! ## The product's operand indices, axis by axis

The product contracts axis 1 of X with axis 0 of W: at output position i and contraction position q the left operand
is read at (i_0, q) and the right operand at (q, i_1). -/

/-- The left operand's row is the output's row. -/
theorem host_lhs_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
/-- The left operand's column is the contraction position. -/
theorem host_lhs_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
/-- The right operand's row is the contraction position. -/
theorem host_rhs_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
/-- The right operand's column is the output's column. -/
theorem host_rhs_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The product X W at an index is the sum over the 128 contraction positions. -/
theorem host_dot_apply (X : FVec Ideal S8192x128 .f32) (W : FVec Ideal S128x128 .f32) (i : S8192x128.Idx) :
    Host.dotGeneral (F := Ideal) dot_S8192x128_S128x128_S8192x128_1_0_0_1_n_n none X W i
      = ∑ k : Fin 128, X (ix2 (⟨(i 0).val, idx2_lt0 i⟩ : Fin 8192) k) * W (ix2 k (⟨(i 1).val, idx2_lt1 i⟩ : Fin 128)) := by
  simp only [Host.dotGeneral]
  rw [Ideal.dotGeneral_apply, ← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx i ((ValueIdx.contrEquiv1 dot_S8192x128_S128x128_S8192x128_1_0_0_1_n_n 128 rfl rfl).symm k)
      = ix2 (⟨(i 0).val, idx2_lt0 i⟩ : Fin 8192) k := funext fun a => Fin.ext (by
    match a with
    | ⟨0, _⟩ => exact host_lhs_0 _ _
    | ⟨1, _⟩ => exact (host_lhs_1 _ _).trans hk)
  have er : dot_S8192x128_S128x128_S8192x128_1_0_0_1_n_n.rhsIdx i ((ValueIdx.contrEquiv1 dot_S8192x128_S128x128_S8192x128_1_0_0_1_n_n 128 rfl rfl).symm k)
      = ix2 k (⟨(i 1).val, idx2_lt1 i⟩ : Fin 128) := funext fun a => Fin.ext (by
    match a with
    | ⟨0, _⟩ => exact (host_rhs_0 _ _).trans hk
    | ⟨1, _⟩ => exact host_rhs_1 _ _)
  rw [el, er]

/-- The column d spread along the rows, at an index, is d at that index's row. -/
theorem host_bcast_apply (D : FVec Ideal S8192x1 .f32) (i : S8192x128.Idx) :
    broadcastInDim S8192x128 ![0, 1] bcast_S8192x1_S8192x128_0_1 D i
      = D (ix2 (⟨(i 0).val, idx2_lt0 i⟩ : Fin 8192) (0 : Fin 1)) :=
  broadcastInDim_apply _ bcast_S8192x1_S8192x128_0_1 D i (ix2 (⟨(i 0).val, idx2_lt0 i⟩ : Fin 8192) (0 : Fin 1)) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

/-- The scaled features as the host computes them are the specification's. -/
theorem host_stage (D : FVec Ideal S8192x1 .f32) (X : FVec Ideal S8192x128 .f32) (W : FVec Ideal S128x128 .f32) :
    mulf (broadcastInDim S8192x128 ![0, 1] bcast_S8192x1_S8192x128_0_1 D)
      (Host.dotGeneral (F := Ideal) dot_S8192x128_S128x128_S8192x128_1_0_0_1_n_n none X W) = Cert.Spec.xwsK D X W := by
  funext i
  rw [mulf_apply, host_bcast_apply, host_dot_apply]
  rfl

end Cert.KernelIdeal.Val

end
-- ==== Proof.Glue.lean ====
/-
  The kernel's result at the ideal values, assembled: region 2's array is the pooling stage of region 1's array, which
  is the graph-convolution stage of the adjacency matrix, of the scaled features the host stretch computed and of
  region 0's degree column; every argument array reaches each region as launched.
-/
import proofs.«115208_j43868795961667_1_alg».proof.Proof.KI.Frame
import proofs.«115208_j43868795961667_1_alg».proof.Proof.ValDeg
import proofs.«115208_j43868795961667_1_alg».proof.Proof.ValGcn
import proofs.«115208_j43868795961667_1_alg».proof.Proof.ValPool
import proofs.«115208_j43868795961667_1_alg».proof.Proof.HostStage
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- What the host stretch leaves in the scaled-features buffer. -/
theorem V2_main_v3 (c : Dev nD) :
    V2 m ρ c main_v3 = mulf (broadcastInDim S8192x128 ![0, 1] bcast_S8192x1_S8192x128_0_1 (V1 m ρ c main_v0))
      (Host.dotGeneral (F := Ideal) (φ₁ := .f32) (φ₂ := .f32) dot_S8192x128_S128x128_S8192x128_1_0_0_1_n_n none (V1 m ρ c main_arg0) (V1 m ρ c main_arg3)) := by
  show StableHlo.after hostOps1 (W1 m ρ c) (Proc.devRef .tc main_v3) = _
  after_results <;> rfl

/-- Region 0's degree column, of the adjacency matrix as launched. -/
theorem V1_main_v0 (c : Dev nD) : V1 m ρ c main_v0 = Cert.Spec.degK (m ((c.tc : Thread nD τ).loc main_arg1)) :=
  (W1_arr m ρ c 1).trans (deg_final (V0 m ρ) c)

theorem V1_main_arg0 (c : Dev nD) : V1 m ρ c main_arg0 = m ((c.tc : Thread nD τ).loc main_arg0) := W1_of_ne m ρ c main_arg0 (by decide)
theorem V1_main_arg3 (c : Dev nD) : V1 m ρ c main_arg3 = m ((c.tc : Thread nD τ).loc main_arg3) := W1_of_ne m ρ c main_arg3 (by decide)

/-- Region 1's entry contents. -/
theorem V2_main_arg1 (c : Dev nD) : V2 m ρ c main_arg1 = m ((c.tc : Thread nD τ).loc main_arg1) :=
  (W2_keep m ρ c main_arg1 (by decide)).trans (W1_in m ρ c 0 rfl)
theorem V2_main_arg4 (c : Dev nD) : V2 m ρ c main_arg4 = m ((c.tc : Thread nD τ).loc main_arg4) :=
  (W2_keep m ρ c main_arg4 (by decide)).trans (W1_of_ne m ρ c main_arg4 (by decide))
theorem V2_main_v0 (c : Dev nD) : V2 m ρ c main_v0 = Cert.Spec.degK (m ((c.tc : Thread nD τ).loc main_arg1)) :=
  (W2_keep m ρ c main_v0 (by decide)).trans (V1_main_v0 m ρ c)
theorem V2_main_v3_eq (c : Dev nD) :
    V2 m ρ c main_v3 = Cert.Spec.xwsK (Cert.Spec.degK (m ((c.tc : Thread nD τ).loc main_arg1))) (m ((c.tc : Thread nD τ).loc main_arg0)) (m ((c.tc : Thread nD τ).loc main_arg3)) := by
  rw [V2_main_v3, V1_main_v0, V1_main_arg0, V1_main_arg3]
  exact host_stage _ _ _

/-- Region 1's hidden features. -/
theorem V3_main_v4 (c : Dev nD) :
    V3 m ρ c main_v4 = Cert.Spec.hK (m ((c.tc : Thread nD τ).loc main_arg1)) (Cert.Spec.xwsK (Cert.Spec.degK (m ((c.tc : Thread nD τ).loc main_arg1))) (m ((c.tc : Thread nD τ).loc main_arg0)) (m ((c.tc : Thread nD τ).loc main_arg3))) (Cert.Spec.degK (m ((c.tc : Thread nD τ).loc main_arg1))) (m ((c.tc : Thread nD τ).loc main_arg4)) := by
  refine (W3_arr m ρ c 4).trans ?_
  rw [gcn_final (V2 m ρ) c, V2_main_arg1, V2_main_v3_eq, V2_main_v0, V2_main_arg4]

theorem V3_main_arg2 (c : Dev nD) : V3 m ρ c main_arg2 = m ((c.tc : Thread nD τ).loc main_arg2) :=
  (W3_of_ne m ρ c main_arg2 (by decide)).trans ((W2_keep m ρ c main_arg2 (by decide)).trans (W1_of_ne m ρ c main_arg2 (by decide)))
theorem V3_main_arg5 (c : Dev nD) : V3 m ρ c main_arg5 = m ((c.tc : Thread nD τ).loc main_arg5) :=
  (W3_of_ne m ρ c main_arg5 (by decide)).trans ((W2_keep m ρ c main_arg5 (by decide)).trans (W1_of_ne m ρ c main_arg5 (by decide)))
theorem V3_main_arg6 (c : Dev nD) : V3 m ρ c main_arg6 = m ((c.tc : Thread nD τ).loc main_arg6) :=
  (W3_of_ne m ρ c main_arg6 (by decide)).trans ((W2_keep m ρ c main_arg6 (by decide)).trans (W1_of_ne m ρ c main_arg6 (by decide)))

/-- THE KERNEL'S RESULT: what region 2's write-backs leave is the specification's kernel arrangement of the arguments. -/
theorem result_eq (c : Dev nD) :
    (dat2 (V3 m ρ) c).arrAt 4 cfg2.N = Cert.Spec.kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [pool_final (V3 m ρ) c, V3_main_arg2, V3_main_v4, V3_main_arg5, V3_main_arg6]
  rfl

end Cert.KernelIdeal.Val

end
-- ==== Proof.Ref.lean ====
/-
  The reference program read at the ideal instance: its result as one function of the argument arrays.

  Stage by stage, each read at an index built from its coordinates: the row sums of A (the host's sum starts from the
  zero word), the degree scaling d, the normalised matrix (d_i A_ij) d_j, the product X W_in, the hidden features
  H = max (sum_j (d_i A_ij d_j) (X W_in)_jf + b_in_f, 0), and the result max ((C H) W_out + b_out, 0).
-/
import proofs.«115208_j43868795961667_1_alg».proof.Proof.Gen.ReferenceIdeal.Read
import proofs.«115208_j43868795961667_1_alg».proof.Proof.Gen.ReferenceIdeal.Run
import proofs.«115208_j43868795961667_1_alg».proof.Proof.Spec

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx
open Cert.Spec (zeroW epsW dOf degR hR refOut)

/-! ## The degree scaling -/

/-- The row-sum stage reads the columns of row a. -/
theorem rowsum_idx (a k : Fin 8192) : Read.idx_main_v0 (ix1 a) k = ix2 a k :=
  funext fun b => Fin.ext (by match b with | ⟨0, _⟩ => rfl | ⟨1, _⟩ => rfl)

/-- The row sum of A at row a, from the zero word. -/
theorem rowsum_at (x1 : FVec Ideal S8192x8192 .f32) (a : Fin 8192) :
    Read.val_main_v0 (F := Ideal) x1 (ix1 a) = zeroW + ∑ j : Fin 8192, x1 (ix2 a j) := by
  rw [Read.val_main_v0_apply, Read.val_main_cst_apply]
  simp only [rowsum_idx]
  rfl

/-- The degree scaling of row a is the specification's. -/
theorem deg_at (x1 : FVec Ideal S8192x8192 .f32) (a : Fin 8192) :
    Read.val_main_v6 (F := Ideal) x1 (ix1 a) = degR x1 a := by
  rw [Read.val_main_v6_apply, Read.val_main_v2_apply, Read.val_main_v5_apply, Read.val_main_v4_apply,
    Read.val_main_v1_apply, Read.val_main_v3_apply, Read.val_main_call0_v1_apply, rowsum_at]
  rfl

/-! ## The normalised matrix and the product X W_in -/

/-- The column broadcast of d reads row a. -/
theorem col_idx (a j : Fin 8192) : Read.idx_main_v7 (Read.idx_main_v8 (ix2 a j)) = ix1 a :=
  funext fun b => Fin.ext (by match b with | ⟨0, _⟩ => rfl)

/-- The row broadcast of d reads column j. -/
theorem row_idx (a j : Fin 8192) : Read.idx_main_v10 (Read.idx_main_v11 (ix2 a j)) = ix1 j :=
  funext fun b => Fin.ext (by match b with | ⟨0, _⟩ => rfl)

/-- The normalised matrix at (a, j) is (d_a A_aj) d_j. -/
theorem adj_at (x1 : FVec Ideal S8192x8192 .f32) (a j : Fin 8192) :
    Read.val_main_v12 (F := Ideal) x1 (ix2 a j) = (degR x1 a * x1 (ix2 a j)) * degR x1 j := by
  rw [Read.val_main_v12_apply, Read.val_main_v9_apply, Read.val_main_v8_apply, Read.val_main_v7_apply,
    Read.val_main_v11_apply, Read.val_main_v10_apply, col_idx, row_idx, deg_at, deg_at]
  rfl

theorem xw_lidx (j : Fin 8192) (f k : Fin 128) : Read.lidx_main_v13 (ix2 j f) k = ix2 j k :=
  funext fun b => Fin.ext (by match b with | ⟨0, _⟩ => rfl | ⟨1, _⟩ => rfl)

theorem xw_ridx (j : Fin 8192) (f k : Fin 128) : Read.ridx_main_v13 (ix2 j f) k = ix2 k f :=
  funext fun b => Fin.ext (by match b with | ⟨0, _⟩ => rfl | ⟨1, _⟩ => rfl)

/-- The product X W_in at (j, f). -/
theorem xw_at (x0 : FVec Ideal S8192x128 .f32) (x3 : FVec Ideal S128x128 .f32) (j : Fin 8192) (f : Fin 128) :
    Read.val_main_v13 (F := Ideal) x0 x3 (ix2 j f) = ∑ k : Fin 128, x0 (ix2 j k) * x3 (ix2 k f) := by
  rw [Read.val_main_v13_apply]
  simp only [xw_lidx, xw_ridx]

/-! ## The hidden features -/

theorem hid_lidx (a : Fin 8192) (f : Fin 128) (j : Fin 8192) : Read.lidx_main_v14 (ix2 a f) j = ix2 a j :=
  funext fun b => Fin.ext (by match b with | ⟨0, _⟩ => rfl | ⟨1, _⟩ => rfl)

theorem hid_ridx (a : Fin 8192) (f : Fin 128) (j : Fin 8192) : Read.ridx_main_v14 (ix2 a f) j = ix2 j f :=
  funext fun b => Fin.ext (by match b with | ⟨0, _⟩ => rfl | ⟨1, _⟩ => rfl)

/-- The bias b_in, broadcast along the rows, reads column f. -/
theorem bin_idx (a : Fin 8192) (f : Fin 128) : Read.idx_main_v15 (Read.idx_main_v16 (ix2 a f)) = ix1 f :=
  funext fun b => Fin.ext (by match b with | ⟨0, _⟩ => rfl)

/-- The hidden features at (a, f) are the specification's. -/
theorem hidden_at (x0 : FVec Ideal S8192x128 .f32) (x1 : FVec Ideal S8192x8192 .f32) (x3 : FVec Ideal S128x128 .f32)
    (x4 : FVec Ideal S128 .f32) (a : Fin 8192) (f : Fin 128) :
    Read.val_main_v18 (F := Ideal) x0 x1 x3 x4 (ix2 a f) = hR x0 x1 x3 x4 (ix2 a f) := by
  rw [Read.val_main_v18_apply, Read.val_main_v17_apply, Read.val_main_v14_apply, Read.val_main_v16_apply,
    Read.val_main_v15_apply, Read.val_main_call1_v0_apply, bin_idx]
  simp only [hid_lidx, hid_ridx, adj_at, xw_at]
  rfl

/-! ## The result -/

theorem pool_lidx (p : Fin 4096) (k : Fin 128) (j : Fin 8192) : Read.lidx_main_v19 (ix2 p k) j = ix2 p j :=
  funext fun b => Fin.ext (by match b with | ⟨0, _⟩ => rfl | ⟨1, _⟩ => rfl)

theorem pool_ridx (p : Fin 4096) (k : Fin 128) (j : Fin 8192) : Read.ridx_main_v19 (ix2 p k) j = ix2 j k :=
  funext fun b => Fin.ext (by match b with | ⟨0, _⟩ => rfl | ⟨1, _⟩ => rfl)

theorem out_lidx (p : Fin 4096) (q k : Fin 128) : Read.lidx_main_v20 (ix2 p q) k = ix2 p k :=
  funext fun b => Fin.ext (by match b with | ⟨0, _⟩ => rfl | ⟨1, _⟩ => rfl)

theorem out_ridx (p : Fin 4096) (q k : Fin 128) : Read.ridx_main_v20 (ix2 p q) k = ix2 k q :=
  funext fun b => Fin.ext (by match b with | ⟨0, _⟩ => rfl | ⟨1, _⟩ => rfl)

/-- The bias b_out, broadcast along the rows, reads column q. -/
theorem bout_idx (p : Fin 4096) (q : Fin 128) : Read.idx_main_v21 (Read.idx_main_v22 (ix2 p q)) = ix1 q :=
  funext fun b => Fin.ext (by match b with | ⟨0, _⟩ => rfl)

/-- The pooled features (C H) at (p, k). -/
theorem pool_at (x0 : FVec Ideal S8192x128 .f32) (x1 : FVec Ideal S8192x8192 .f32) (x2 : FVec Ideal S4096x8192 .f32)
    (x3 : FVec Ideal S128x128 .f32) (x4 : FVec Ideal S128 .f32) (p : Fin 4096) (k : Fin 128) :
    Read.val_main_v19 (F := Ideal) x0 x1 x2 x3 x4 (ix2 p k) = ∑ j : Fin 8192, x2 (ix2 p j) * hR x0 x1 x3 x4 (ix2 j k) := by
  rw [Read.val_main_v19_apply]
  simp only [pool_lidx, pool_ridx, hidden_at]

/-- The reference's result term is the specification's function of the argument arrays. -/
theorem result_eq (x0 : FVec Ideal S8192x128 .f32) (x1 : FVec Ideal S8192x8192 .f32) (x2 : FVec Ideal S4096x8192 .f32)
    (x3 : FVec Ideal S128x128 .f32) (x4 : FVec Ideal S128 .f32) (x5 : FVec Ideal S128x128 .f32) (x6 : FVec Ideal S128 .f32) :
    maximumf (addf (Host.dotGeneral dot_S4096x128_S128x128_S4096x128_1_0_0_1_n_n none (Host.dotGeneral dot_S4096x8192_S8192x128_S4096x128_1_0_0_1_n_n none x2 (maximumf (addf (Host.dotGeneral dot_S8192x8192_S8192x128_S8192x128_1_0_0_1_n_n none (mulf (mulf (broadcastInDim S8192x8192 ![0, 1] bcast_S8192x1_S8192x8192_0_1 (broadcastInDim S8192x1 ![0] bcast_S8192_S8192x1_0 (select (cmpf .ogt (Host.reduceAdd x1 (constant S_ .f32 0x00000000#32) reducesTo_S8192x8192_S8192_d1 h_S_) (broadcastInDim S8192 ![] bcast_S_S8192 (constant S_ .f32 0x00000000#32))) (Host.rsqrt (maximumf (Host.reduceAdd x1 (constant S_ .f32 0x00000000#32) reducesTo_S8192x8192_S8192_d1 h_S_) (broadcastInDim S8192 ![] bcast_S_S8192 (constant S_ .f32 0x2B8CBCCC#32)))) (broadcastInDim S8192 ![] bcast_S_S8192 (id (constant S_ .f32 0x00000000#32)))))) x1) (broadcastInDim S8192x8192 ![0, 1] bcast_S1x8192_S8192x8192_0_1 (broadcastInDim S1x8192 ![1] bcast_S8192_S1x8192_1 (select (cmpf .ogt (Host.reduceAdd x1 (constant S_ .f32 0x00000000#32) reducesTo_S8192x8192_S8192_d1 h_S_) (broadcastInDim S8192 ![] bcast_S_S8192 (constant S_ .f32 0x00000000#32))) (Host.rsqrt (maximumf (Host.reduceAdd x1 (constant S_ .f32 0x00000000#32) reducesTo_S8192x8192_S8192_d1 h_S_) (broadcastInDim S8192 ![] bcast_S_S8192 (constant S_ .f32 0x2B8CBCCC#32)))) (broadcastInDim S8192 ![] bcast_S_S8192 (id (constant S_ .f32 0x00000000#32))))))) (Host.dotGeneral dot_S8192x128_S128x128_S8192x128_1_0_0_1_n_n none x0 x3)) (broadcastInDim S8192x128 ![0, 1] bcast_S1x128_S8192x128_0_1 (broadcastInDim S1x128 ![1] bcast_S128_S1x128_1 x4))) (broadcastInDim S8192x128 ![] bcast_S_S8192x128 (constant S_ .f32 0x00000000#32)))) x5) (broadcastInDim S4096x128 ![0, 1] bcast_S1x128_S4096x128_0_1 (broadcastInDim S1x128 ![1] bcast_S128_S1x128_1 x6))) (broadcastInDim S4096x128 ![] bcast_S_S4096x128 (constant S_ .f32 0x00000000#32))
      = refOut x0 x1 x2 x3 x4 x5 x6 := by
  rw [Read.val_main_v24_eq]
  funext i
  obtain ⟨p, q, rfl⟩ : ∃ (p : Fin 4096) (q : Fin 128), i = ix2 p q := ⟨i 0, i 1, eq_ix2 i⟩
  rw [Read.val_main_v24_apply, Read.val_main_v23_apply, Read.val_main_v20_apply, Read.val_main_v22_apply,
    Read.val_main_v21_apply, Read.val_main_call2_v0_apply, bout_idx]
  simp only [out_lidx, out_ridx, pool_at]
  rfl

end Cert.RefSide

end
-- ==== Proof.FinPre.lean ====
/-
  The precondition, read back: where the printed predicate (the conjunction of "every |x| is below +inf" over the
  seven argument arrays) is all ones, every entry of an argument array is a real number.

  One conjunct is a reduction by "and", over all axes and from the constant 1, of the comparisons |x_i| < +inf.
  If it is 1, every comparison is 1, so max x_i (-x_i) < +inf, so x_i is neither +inf nor -inf (the junk value is
  -inf here): x_i is a real.
-/
import proofs.«115208_j43868795961667_1_alg».proof.Defs
import proofs.«115208_j43868795961667_1_alg».proof.Proof.Gen.Pre_finite_inputs
import proofs.«115208_j43868795961667_1_alg».proof.Proof.Spec
import Idealize.ShloMosaic.Lib.ReduceAll
import Idealize.ShloMosaic.Lib.ValueIdx

noncomputable section

namespace Cert.FinPre

open Idealize.ShloMosaic Idealize.ShloMosaic.ValueIdx Idealize.SL.Sem

/-- The word 0x7F800000 is +inf. -/
theorem inf_word : Ideal.ofBits .f32 0x7F800000#32 = (⊤ : EReal) := by
  simp [Ideal.ofBits, Ideal.ieee]

/-- An extended real whose absolute value compares below +inf is a real. -/
theorem real_of_abs_lt (x : EReal)
    (h : Ideal.cmp .olt (max x (-x)) (Ideal.ofBits .f32 0x7F800000#32) = 1#1) : ∃ r : ℝ, x = (r : EReal) := by
  rw [inf_word] at h
  have hlt : max x (-x) < (⊤ : EReal) := by
    by_contra hn
    simp [Ideal.cmp, hn] at h
  obtain ⟨h1, h2⟩ := max_lt_iff.1 hlt
  induction x using EReal.rec with
  | bot => simp at h2
  | coe r => exact ⟨r, rfl⟩
  | top => simp at h1

/-- The result shape of a reduction over all axes has one index. -/
instance : Subsingleton Cert.Pre_finite_inputs.S_.Idx := ⟨fun a b => funext fun d => d.elim0⟩

/-- ONE CONJUNCT: an array of any shape whose "all (|x| < +inf)" is 1 has real entries only. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1)
    (i : s.Idx) : ∃ r : ℝ, x i = (r : EReal) :=
  real_of_abs_lt (x i) (Host.reduce_andi_all _ _ hr hu ix0 e i)

/-- THE PRECONDITION READ BACK: where the printed predicate is all ones, the feature matrix, the adjacency matrix and
    the first weight matrix have real entries only.  The predicate is ((((((p0 and p1) and p2) and p3) and p4) and p5)
    and p6), one conjunct per argument; the conjunction is split from the outside in. -/
theorem fin_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.Fin2 (m ((c.tc : Thread Cert.KernelIdeal.nD Cert.KernelIdeal.τ).loc Cert.KernelIdeal.main_arg0))
    ∧ Cert.Spec.Fin2 (m ((c.tc : Thread Cert.KernelIdeal.nD Cert.KernelIdeal.τ).loc Cert.KernelIdeal.main_arg1))
    ∧ Cert.Spec.Fin2 (m ((c.tc : Thread Cert.KernelIdeal.nD Cert.KernelIdeal.τ).loc Cert.KernelIdeal.main_arg3)) := by
  have h33 : IntOp.andi _ _ = 1#1 := congrFun (h c) ix0
  have h28 : IntOp.andi _ _ = 1#1 := (IntOp.andi_eq_one.1 h33).1
  have h23 : IntOp.andi _ _ = 1#1 := (IntOp.andi_eq_one.1 h28).1
  have h18 : IntOp.andi _ _ = 1#1 := (IntOp.andi_eq_one.1 h23).1
  obtain ⟨h13', h17⟩ := IntOp.andi_eq_one.1 h18
  have h13 : IntOp.andi _ _ = 1#1 := h13'
  obtain ⟨h8', h12⟩ := IntOp.andi_eq_one.1 h13
  have h8 : IntOp.andi _ _ = 1#1 := h8'
  obtain ⟨h3, h7⟩ := IntOp.andi_eq_one.1 h8
  exact ⟨fun ix => real_of_all _ _ _ _ h3 ix, fun ix => real_of_all _ _ _ _ h7 ix,
    fun ix => real_of_all _ _ _ _ h17 ix⟩

end Cert.FinPre

end
-- ==== Proof.lean ====
/-
  The certificate: a graph-convolution layer followed by a pooling layer, computed by three kernel regions with a host
  stretch between the first two, against the plain reference.

  With s_i the i-th row sum of the adjacency matrix A and d_i = (s_i > 0 ? rsqrt (max s_i 1e-12) : 0), the reference
  forms the normalised matrix d_i A_ij d_j, multiplies it with X W_in, adds the bias and clamps at zero, then multiplies
  with the coarsening matrix C, with W_out, adds the second bias and clamps again.  The kernel computes d in its first
  region, scales the rows of X W_in by d on the host, accumulates A times the scaled features over four column blocks
  in its second region and scales the rows of the sum by d before the bias and the clamp, and accumulates C times the
  hidden features over four column blocks in its third region before the second product, bias and clamp.

  The frames: each kernel region's body obligation, the host stretch, and one launch over the four segments give,
  at either element instance, that every weakly fair execution terminates with every unscoped buffer at the fold of
  the boundary contents; an argument array is written by nobody, so it ends as launched.  The reference is a host
  program; its frame is its run with the result dropped.

  The values, at the ideal instance: the kernel's result array is the specification's kernel arrangement of the
  arguments (each region's write-backs tile its result; the accumulators hold the left-nested block sums), the
  reference's result is the specification's reference arrangement, and over finite X, A and W_in — which the
  precondition gives — every factor is a real number, so moving d_i across the sum over j is distributivity in the
  reals and regrouping the block sums is associativity.  The idealization rewrote nothing, so the kernel's
  idealization is the kernel's own text.
-/
import proofs.«115208_j43868795961667_1_alg».proof.Defs
import proofs.«115208_j43868795961667_1_alg».proof.Proof.Gen.Kernel
import proofs.«115208_j43868795961667_1_alg».proof.Proof.Gen.KernelIdeal
import proofs.«115208_j43868795961667_1_alg».proof.Proof.Gen.ReferenceIdeal
import proofs.«115208_j43868795961667_1_alg».proof.Proof.Gen.ReferenceIdeal.Run
import proofs.«115208_j43868795961667_1_alg».proof.Proof.Gen.Pre_finite_inputs
import proofs.«115208_j43868795961667_1_alg».proof.Proof.K.Frame
import proofs.«115208_j43868795961667_1_alg».proof.Proof.KI.Frame
import proofs.«115208_j43868795961667_1_alg».proof.Proof.Glue
import proofs.«115208_j43868795961667_1_alg».proof.Proof.Ref
import proofs.«115208_j43868795961667_1_alg».proof.Proof.FinPre
import proofs.«115208_j43868795961667_1_alg».proof.Proof.Spec

noncomputable section

namespace Cert.Proof

open Idealize.ShloMosaic Idealize.ShloMosaic.TcCoe Idealize.SL.Sem

/-- The word-level kernel's frame: its run read at the arguments. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealized kernel's frame. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the specification's kernel arrangement of the arguments: the kernel by its run
    and the regions' values, the reference by its run, its term read as the reference arrangement, and the algebra
    over the finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KernelIdeal.Val.result_eq m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨hX, hA, hW⟩ := Cert.FinPre.fin_of_pre (hPre := Cert.Pre_finite_inputs.Gen.facts) m hpre c
    rw [Cert.RefSide.result_eq, (hagree c).1, (hagree c).2.1, (hagree c).2.2.1, (hagree c).2.2.2.1, (hagree c).2.2.2.2.1,
      (hagree c).2.2.2.2.2.1, (hagree c).2.2.2.2.2.2]
    exact (Cert.Spec.kernelOut_eq_refOut _ _ _ _ _ _ _ hX hA hW).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
